-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3x64x128 : Shape := ⟨3, ![3, 64, 128]⟩
abbrev S3x128 : Shape := ⟨2, ![3, 128]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x128 : S_.BroadcastsInDim S3x64x128 (![] : Fin 0 → Fin S3x64x128.rank)
  reducesTo_S3x64x128_S_d0_1_2 : S3x64x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn {F : FTy → Type} [FloatOps F] (main_arg0 : FVec F S100000x64 .f32) (main_arg1 : FVec F S3x64x128 .f32) (main_arg2 : FVec F S3x128 .f32) (main_arg3 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x128 .f32 := Host.absf main_arg1
  let main_cst_0 : FVec F S_ .f32 := constant S_ .f32 0x7F800000#32
  let main_v5 : FVec F S3x64x128 .f32 := broadcastInDim S3x64x128 ![] bcast_S_S3x64x128 main_cst_0
  let main_v6 : IVec S3x64x128 1 := cmpf .olt main_v4 main_v5
  let main_c_1 : IVec S_ 1 := constantI S_ 1 1#1
  let main_v7 : IVec S_ 1 := (fun x v => Host.reduce IntOp.andi x v reducesTo_S3x64x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  main_v13
-- ==== Kernel.lean ====
abbrev S100000x64 : Shape := ⟨2, ![100000, 64]⟩
abbrev S3x64x128 : Shape := ⟨3, ![3, 64, 128]⟩
abbrev S3x128 : Shape := ⟨2, ![3, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S100000x128 : Shape := ⟨2, ![100000, 128]⟩
abbrev S10000x64 : Shape := ⟨2, ![10000, 64]⟩
abbrev S10000x128 : Shape := ⟨2, ![10000, 128]⟩
abbrev S1600000x128 : Shape := ⟨2, ![1600000, 128]⟩
abbrev S100000x1 : Shape := ⟨2, ![100000, 1]⟩
abbrev S5000x128 : Shape := ⟨2, ![5000, 128]⟩
abbrev S5000x1 : Shape := ⟨2, ![5000, 1]⟩
abbrev S5000x64 : Shape := ⟨2, ![5000, 64]⟩

abbrev nBuf : Space → Nat
  | .hbm => 117
  | .vmem => 48
  | .smem => 0
  | _ => 0

abbrev bufTy : (tb : Table) → Fin (tcTables nBuf tb) → BufTy
  | .hbm, ⟨0, _⟩ => ⟨S100000x64, .f32⟩
  | .hbm, ⟨1, _⟩ => ⟨S3x64x128, .f32⟩
  | .hbm, ⟨2, _⟩ => ⟨S3x128, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S100000, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S_, .f32⟩
  | .hbm, ⟨19, _⟩ => ⟨S1600000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000, .f32⟩
  | .hbm, ⟨45, _⟩ => ⟨S1x64x128, .f32⟩
  | .hbm, ⟨46, _⟩ => ⟨S64x128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x1, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x1, .f32⟩
  | .hbm, ⟨68, _⟩ => ⟨S100000x64, .f32⟩
  | .hbm, ⟨69, _⟩ => ⟨S1x64x128, .f32⟩
  | .hbm, ⟨70, _⟩ => ⟨S64x128, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x128, .f32⟩
  | .hbm, ⟨84, _⟩ => ⟨S1600000x1, .f32⟩
  | .hbm, ⟨85, _⟩ => ⟨S1600000x128, .f32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S100000x1, .f32⟩
  | .hbm, ⟨92, _⟩ => ⟨S100000x64, .f32⟩
  | .hbm, ⟨93, _⟩ => ⟨S1x64x128, .f32⟩
  | .hbm, ⟨94, _⟩ => ⟨S64x128, .f32⟩
  | .hbm, ⟨95, _⟩ => ⟨S1x128, .f32⟩
  | .hbm, ⟨96, _⟩ => ⟨S128, .f32⟩
  | .hbm, ⟨97, _⟩ => ⟨S1x128, .f32⟩
  | .hbm, ⟨98, _⟩ => ⟨S100000x128, .f32⟩
  | .hbm, ⟨99, _⟩ => ⟨S_, .i32⟩
  | .hbm, ⟨100, _⟩ => ⟨S1600000, .i32⟩
  | .hbm, ⟨101, _⟩ => ⟨S1600000, .i1⟩
  | .hbm, ⟨102, _⟩ => ⟨S_, .i32⟩
  | .hbm, ⟨103, _⟩ => ⟨S1600000, .i32⟩
  | .hbm, ⟨104, _⟩ => ⟨S1600000, .i32⟩
  | .hbm, ⟨105, _⟩ => ⟨S1600000, .i32⟩
  | .hbm, ⟨106, _⟩ => ⟨S1600000x1, .i32⟩
  | .hbm, ⟨107, _⟩ => ⟨S1600000x128, .f32⟩
  | .hbm, ⟨108, _⟩ => ⟨S1600000x1, .f32⟩
  | .hbm, ⟨109, _⟩ => ⟨S1600000x128, .f32⟩
  | .hbm, ⟨110, _⟩ => ⟨S1600000x128, .f32⟩
  | .hbm, ⟨111, _⟩ => ⟨S_, .f32⟩
  | .hbm, ⟨112, _⟩ => ⟨S100000x128, .f32⟩
  | .hbm, ⟨113, _⟩ => ⟨S1600000x1, .i32⟩
  | .hbm, ⟨114, _⟩ => ⟨S100000x128, .f32⟩
  | .hbm, ⟨115, _⟩ => ⟨S100000x1, .f32⟩
  | .hbm, ⟨116, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S10000x64, .f32⟩
  | .local _ .vmem, ⟨17, _⟩ => ⟨S10000x64, .f32⟩
  | .local _ .vmem, ⟨18, _⟩ => ⟨S64x128, .f32⟩
  | .local _ .vmem, ⟨19, _⟩ => ⟨S10000x128, .f32⟩
  | .local _ .vmem, ⟨20, _⟩ => ⟨S10000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S10000x64, .f32⟩
  | .local _ .vmem, ⟨33, _⟩ => ⟨S10000x64, .f32⟩
  | .local _ .vmem, ⟨34, _⟩ => ⟨S64x128, .f32⟩
  | .local _ .vmem, ⟨35, _⟩ => ⟨S10000x128, .f32⟩
  | .local _ .vmem, ⟨36, _⟩ => ⟨S10000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x1, .f32⟩
  | .local _ .vmem, ⟨42, _⟩ => ⟨S5000x1, .f32⟩
  | .local _ .vmem, ⟨43, _⟩ => ⟨S1x128, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_c_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_10 : Ref sig .tc := ⟨.hbm, 75, rfl⟩
abbrev main_v59 : Ref sig .tc := ⟨.hbm, 76, rfl⟩
abbrev main_v60 : Ref sig .tc := ⟨.hbm, 77, rfl⟩
abbrev main_c_11 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_12 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_c_13 : Ref sig .tc := ⟨.hbm, 99, rfl⟩
abbrev main_v80 : Ref sig .tc := ⟨.hbm, 100, rfl⟩
abbrev main_v81 : Ref sig .tc := ⟨.hbm, 101, rfl⟩
abbrev main_c_14 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_15 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc5_stg5_0 : Ref sig .tc := ⟨.vmem, 46, rfl⟩
abbrev cc5_stg5_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem4_1 : DmaSem sig := 45
abbrev cc5_sem5_0 : DmaSem sig := 46
abbrev cc5_sem5_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S10000x128_S10000x128_0_0 : ∀ a, (![0, 0] : Fin 2 → Nat) a + S10000x128.size a ≤ S10000x128.size a
  h_S10000x128 : 0 < S10000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5000x128_o0_0_S5000x64 : S5000x128.Slices ![0, 0] S5000x64
  slices_S5000x128_o0_64_S5000x64 : S5000x128.Slices ![0, 64] S5000x64
  inb_S5000x64_S5000x64_0_0 : ∀ a, (![0, 0] : Fin 2 → Nat) a + S5000x64.size a ≤ S5000x64.size a
  h_S5000x64 : 0 < S5000x64.numel
  slices_S3x64x128_S1x64x128_1_0_0 : S3x64x128.Slices ![1, 0, 0] S1x64x128
  slices_S3x128_S1x128_1_0 : S3x128.Slices ![1, 0] S1x128
  shapeCasts_S10000x64_S10000x64 : S10000x64.ShapeCasts S10000x64
  shapeCasts_S5000x64_S5000x64 : S5000x64.ShapeCasts S5000x64
  slices_S3x64x128_S1x64x128_2_0_0 : S3x64x128.Slices ![2, 0, 0] S1x64x128
  slices_S3x128_S1x128_2_0 : S3x128.Slices ![2, 0] S1x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x64_S64x128_S10000x128_1_0_0_1_n_n_wf : DotDims.WF S10000x64 S64x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S5000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S5000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v73) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v73) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v92) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v93) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v78) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S5000x64.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v94) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x64 : Shape := ⟨2, ![100000, 64]⟩
abbrev S3x64x128 : Shape := ⟨3, ![3, 64, 128]⟩
abbrev S3x128 : Shape := ⟨2, ![3, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S100000x128 : Shape := ⟨2, ![100000, 128]⟩
abbrev S1600000x128 : Shape := ⟨2, ![1600000, 128]⟩
abbrev S100000x1 : Shape := ⟨2, ![100000, 1]⟩

abbrev nBuf : Space → Nat
  | .hbm => 205
  | .vmem => 0
  | .smem => 0
  | _ => 0

abbrev hbmTy0_0 (i : Nat) : BufTy := match i % 128 with
  | 0 => ⟨S100000x64, .f32⟩
  | 1 => ⟨S3x64x128, .f32⟩
  | 2 => ⟨S3x128, .f32⟩
  | 3 => ⟨S2x1600000, .i32⟩
  | 4 => ⟨S1x1600000, .i32⟩
  | 5 => ⟨S1600000, .i32⟩
  | 6 => ⟨S1x1600000, .i32⟩
  | 7 => ⟨S1600000, .i32⟩
  | 8 => ⟨S_, .f32⟩
  | 9 => ⟨S100000, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S_, .f32⟩
  | 19 => ⟨S1600000, .f32⟩
  | 20 => ⟨S100000, .f32⟩
  | 21 => ⟨S_, .f32⟩
  | 22 => ⟨S100000, .f32⟩
  | 23 => ⟨S100000, .f32⟩
  | 24 => ⟨S100000, .f32⟩
  | 25 => ⟨S1x64x128, .f32⟩
  | 26 => ⟨S64x128, .f32⟩
  | 27 => ⟨S1x128, .f32⟩
  | 28 => ⟨S128, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S100000x64, .f32⟩
  | 74 => ⟨S100000x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S100000x64, .f32⟩
  | 85 => ⟨S1x64x128, .f32⟩
  | 86 => ⟨S64x128, .f32⟩
  | 87 => ⟨S1x128, .f32⟩
  | 88 => ⟨S128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000, .f32⟩
  | 108 => ⟨S1600000, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S1600000x1, .f32⟩
  | 119 => ⟨S1600000x128, .f32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S100000, .f32⟩
  | 126 => ⟨S100000x1, .f32⟩
  | 127 => ⟨S100000x128, .f32⟩
  | _ => ⟨S100000x64, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S100000x64, .f32⟩
  | 6 => ⟨S100000x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S100000x64, .f32⟩
  | 16 => ⟨S100000x64, .f32⟩
  | 17 => ⟨S1x64x128, .f32⟩
  | 18 => ⟨S64x128, .f32⟩
  | 19 => ⟨S1x128, .f32⟩
  | 20 => ⟨S128, .f32⟩
  | 21 => ⟨S100000x128, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S1600000x1, .f32⟩
  | 51 => ⟨S1600000x128, .f32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S100000, .f32⟩
  | 58 => ⟨S100000x1, .f32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S100000x64, .f32⟩
  | 66 => ⟨S100000x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c_12 : Ref sig .tc := ⟨.hbm, 90, rfl⟩
abbrev main_v72 : Ref sig .tc := ⟨.hbm, 91, rfl⟩
abbrev main_v73 : Ref sig .tc := ⟨.hbm, 92, rfl⟩
abbrev main_c_13 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_14 : Ref sig .tc := ⟨.hbm, 99, rfl⟩
abbrev main_v79 : Ref sig .tc := ⟨.hbm, 100, rfl⟩
abbrev main_v80 : Ref sig .tc := ⟨.hbm, 101, rfl⟩
abbrev main_c_15 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_c_16 : Ref sig .tc := ⟨.hbm, 109, rfl⟩
abbrev main_v87 : Ref sig .tc := ⟨.hbm, 110, rfl⟩
abbrev main_v88 : Ref sig .tc := ⟨.hbm, 111, rfl⟩
abbrev main_c_17 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_18 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_cst_19 : Ref sig .tc := ⟨.hbm, 137, rfl⟩
abbrev main_v112 : Ref sig .tc := ⟨.hbm, 138, rfl⟩
abbrev main_v113 : Ref sig .tc := ⟨.hbm, 139, rfl⟩
abbrev main_cst_20 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_c_21 : Ref sig .tc := ⟨.hbm, 150, rfl⟩
abbrev main_v123 : Ref sig .tc := ⟨.hbm, 151, rfl⟩
abbrev main_v124 : Ref sig .tc := ⟨.hbm, 152, rfl⟩
abbrev main_c_22 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_c_23 : Ref sig .tc := ⟨.hbm, 159, rfl⟩
abbrev main_v130 : Ref sig .tc := ⟨.hbm, 160, rfl⟩
abbrev main_v131 : Ref sig .tc := ⟨.hbm, 161, rfl⟩
abbrev main_c_24 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_c_25 : Ref sig .tc := ⟨.hbm, 169, rfl⟩
abbrev main_v138 : Ref sig .tc := ⟨.hbm, 170, rfl⟩
abbrev main_v139 : Ref sig .tc := ⟨.hbm, 171, rfl⟩
abbrev main_c_26 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_cst_27 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_cst_28 : Ref sig .tc := ⟨.hbm, 197, rfl⟩
abbrev main_v163 : Ref sig .tc := ⟨.hbm, 198, rfl⟩
abbrev main_v164 : Ref sig .tc := ⟨.hbm, 199, rfl⟩
abbrev main_cst_29 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x128_S100000x64_0_0 : S100000x128.Slices ![0, 0] S100000x64
  slices_S100000x128_S100000x64_0_64 : S100000x128.Slices ![0, 64] S100000x64
  bcast_S_S100000x64 : S_.BroadcastsInDim S100000x64 (![] : Fin 0 → Fin S100000x64.rank)
  slices_S3x64x128_S1x64x128_1_0_0 : S3x64x128.Slices ![1, 0, 0] S1x64x128
  slices_S3x128_S1x128_1_0 : S3x128.Slices ![1, 0] S1x128
  slices_S3x64x128_S1x64x128_2_0_0 : S3x64x128.Slices ![2, 0, 0] S1x64x128
  slices_S3x128_S1x128_2_0 : S3x128.Slices ![2, 0] S1x128
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The two per-node computations of a gated graph-convolution layer, stated index by index over the extended
  reals, so that a blocked device computation and a whole-array host computation can both be read against them.

  MM x w is the feature transform: row r of x times the weight matrix, (x·w)(r, n) = Σ_q x(r, q) · w(q, n).

  CB agg h sc b x is the gate with its residual: with pre(r, n) = agg(r, n) + h(r, n) · sc(r) + b(n) over the
  128 transformed channels, output channel j < 64 of node r is
      pre(r, j) · σ(pre(r, j + 64)) + x(r, j),
  σ the logistic function 1 / (1 + e^(-t)): the first half of the channels is gated by the second half.
-/
import Idealize.ShloMosaic.PureOps.Ideal
import Idealize.ShloMosaic.Lib.ValueIdx
import Mathlib.Algebra.BigOperators.Group.Finset.Basic

noncomputable section

open scoped BigOperators

namespace Cert.Spec

open Idealize.ShloMosaic Idealize.ShloMosaic.ValueIdx

/-- Channel j of the first (value) half of the 128 transformed channels. -/
abbrev lo (j : Fin 64) : Fin 128 := ⟨j.val, by omega⟩
/-- Channel j of the second (gate) half of the 128 transformed channels. -/
abbrev hi (j : Fin 64) : Fin 128 := ⟨j.val + 64, by omega⟩

/-- Entry (r, n) of the product of the node features with a weight matrix: the sum over the 64 input channels. -/
def mmAt (x : FVec Ideal ⟨2, ![100000, 64]⟩ .f32) (w : FVec Ideal ⟨2, ![64, 128]⟩ .f32) (r : Fin 100000) (n : Fin 128) :
    Ideal .f32 :=
  ∑ q : Fin 64, x (ix2 r q) * w (ix2 q n)

/-- The product of the node features with a weight matrix, as an array. -/
def MM (x : FVec Ideal ⟨2, ![100000, 64]⟩ .f32) (w : FVec Ideal ⟨2, ![64, 128]⟩ .f32) :
    FVec Ideal ⟨2, ![100000, 128]⟩ .f32 :=
  fun i => mmAt x w (i 0) (i 1)

/-- The pre-activation of node r at transformed channel n: the neighbours' aggregate, plus the node's own transformed
    features scaled by its self-loop weight, plus the bias. -/
def preAt (agg h : FVec Ideal ⟨2, ![100000, 128]⟩ .f32) (sc : FVec Ideal ⟨1, ![100000]⟩ .f32)
    (b : FVec Ideal ⟨1, ![128]⟩ .f32) (r : Fin 100000) (n : Fin 128) : Ideal .f32 :=
  agg (ix2 r n) + h (ix2 r n) * sc (ix1 r) + b (ix1 n)

/-- Output channel j of node r: the value half gated by the logistic of the gate half, plus the layer's input. -/
def cbAt (agg h : FVec Ideal ⟨2, ![100000, 128]⟩ .f32) (sc : FVec Ideal ⟨1, ![100000]⟩ .f32)
    (b : FVec Ideal ⟨1, ![128]⟩ .f32) (x : FVec Ideal ⟨2, ![100000, 64]⟩ .f32) (r : Fin 100000) (j : Fin 64) : Ideal .f32 :=
  preAt agg h sc b r (lo j) * Ideal.logistic (preAt agg h sc b r (hi j)) + x (ix2 r j)

/-- The gated layer output, as an array. -/
def CB (agg h : FVec Ideal ⟨2, ![100000, 128]⟩ .f32) (sc : FVec Ideal ⟨1, ![100000]⟩ .f32)
    (b : FVec Ideal ⟨1, ![128]⟩ .f32) (x : FVec Ideal ⟨2, ![100000, 64]⟩ .f32) : FVec Ideal ⟨2, ![100000, 64]⟩ .f32 :=
  fun i => cbAt agg h sc b x (i 0) (i 1)

end Cert.Spec

end
-- ==== Proof.Terms.lean ====
/-
  The layer of the graph convolution as ONE function of its inputs, shared by the two programs.

  From the edge list e (row 0 the sources, row 1 the targets; a negative node index counts from the end):
  deg(v) = 1 + the number of edges into v, dinv = deg^(-1/2), the weight of edge k is dinv(src k) · dinv(dst k)
  and the self-loop weight of node v is dinv(v)². A layer maps node features x (64 channels) to
      CB (agg h) h self b x,   h = x · w,   agg h (v, ·) = Σ over edges k into v of weight(k) · h(src k, ·),
  the gate CB and the product MM being those of the specification. Three layers are applied in a row, each with
  its own slice of the stacked weights and biases. The gathers and scatter-adds are kept as the host operations
  themselves: both programs apply the very same ones, so they are never opened.
-/
import proofs.«407175_j71511205479061_4_alg».proof.Proof.Gen.KernelIdeal
import proofs.«407175_j71511205479061_4_alg».proof.Proof.Spec
import Idealize.ShloMosaic.PureOps.Ideal

noncomputable section

namespace Cert.KernelIdeal.Terms

open Idealize.ShloMosaic Idealize.ShloMosaic.TcCoe Idealize.SL.Sem
open Cert.KernelIdeal Cert.KernelIdeal.Gen

/-- The sources of the edges: row 0 of the edge list. -/
def srcOf (e : IVec S2x1600000 32) : IVec S1600000 32 :=
  shapeCast _ (extractStridedSlice S1x1600000 ![0, 0] e slices_S2x1600000_S1x1600000_0_0) shapeCasts_S1x1600000_S1600000

/-- The targets of the edges: row 1 of the edge list. -/
def dstOf (e : IVec S2x1600000 32) : IVec S1600000 32 :=
  shapeCast _ (extractStridedSlice S1x1600000 ![1, 0] e slices_S2x1600000_S1x1600000_1_0) shapeCasts_S1x1600000_S1600000

/-- A negative node index counts from the end: v < 0 is read as v + 100000. -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- Node indices as the one-column index array a gather or scatter takes. -/
def col (v : IVec S1600000 32) : IVec S1600000x1 32 :=
  broadcastInDim S1600000x1 ![0] bcast_S1600000_S1600000x1_0 v

/-- deg^(-1/2), where deg(v) is one (the self loop) plus the number of edges into v. -/
def dinvOf (e : IVec S2x1600000 32) : FVec Ideal S100000 .f32 :=
  Host.rsqrt (addf (Host.scatterAdd scatter_S100000_S1600000x1_S1600000_n_0_0_1
      (broadcastInDim S100000 ![] bcast_S_S100000 (constant S_ .f32 0x00000000#32)) (col (wrap (dstOf e)))
      (broadcastInDim S1600000 ![] bcast_S_S1600000 (constant S_ .f32 0x3F800000#32)))
    (broadcastInDim S100000 ![] bcast_S_S100000 (constant S_ .f32 0x3F800000#32)))

/-- The weight of each edge: dinv at its source times dinv at its target. -/
def coefOf (e : IVec S2x1600000 32) : FVec Ideal S1600000 .f32 :=
  mulf (Host.gather gather_S100000_S1600000x1_S1600000_n_0_n_n_0_1_1 (dinvOf e) (col (wrap (srcOf e))))
    (Host.gather gather_S100000_S1600000x1_S1600000_n_0_n_n_0_1_1 (dinvOf e) (col (wrap (dstOf e))))

/-- The weight of each node's self loop: dinv squared. -/
def selfOf (e : IVec S2x1600000 32) : FVec Ideal S100000 .f32 := mulf (dinvOf e) (dinvOf e)

/-- The neighbours' aggregate: every edge adds its weight times its source's transformed features to its target. -/
def aggOf (e : IVec S2x1600000 32) (h : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32)) (col (dstOf e))
    (mulf (Host.gather gather_S100000x128_S1600000x1_S1600000x128_1_0_n_n_0_1_1128 h (col (wrap (srcOf e))))
      (broadcastInDim S1600000x128 ![0, 1] bcast_S1600000x1_S1600000x128_0_1
        (broadcastInDim S1600000x1 ![0] bcast_S1600000_S1600000x1_0 (coefOf e))))

/-- The three layers' weight matrices: the slices of the stacked weights. -/
def weight0 (a : FVec Ideal S3x64x128 .f32) : FVec Ideal S64x128 .f32 :=
  shapeCast _ (extractStridedSlice S1x64x128 ![0, 0, 0] a slices_S3x64x128_S1x64x128_0_0_0) shapeCasts_S1x64x128_S64x128
def weight1 (a : FVec Ideal S3x64x128 .f32) : FVec Ideal S64x128 .f32 :=
  shapeCast _ (extractStridedSlice S1x64x128 ![1, 0, 0] a slices_S3x64x128_S1x64x128_1_0_0) shapeCasts_S1x64x128_S64x128
def weight2 (a : FVec Ideal S3x64x128 .f32) : FVec Ideal S64x128 .f32 :=
  shapeCast _ (extractStridedSlice S1x64x128 ![2, 0, 0] a slices_S3x64x128_S1x64x128_2_0_0) shapeCasts_S1x64x128_S64x128

/-- The three layers' biases: the rows of the stacked biases. -/
def bias0 (a : FVec Ideal S3x128 .f32) : FVec Ideal S128 .f32 :=
  shapeCast _ (extractStridedSlice S1x128 ![0, 0] a slices_S3x128_S1x128_0_0) shapeCasts_S1x128_S128
def bias1 (a : FVec Ideal S3x128 .f32) : FVec Ideal S128 .f32 :=
  shapeCast _ (extractStridedSlice S1x128 ![1, 0] a slices_S3x128_S1x128_1_0) shapeCasts_S1x128_S128
def bias2 (a : FVec Ideal S3x128 .f32) : FVec Ideal S128 .f32 :=
  shapeCast _ (extractStridedSlice S1x128 ![2, 0] a slices_S3x128_S1x128_2_0) shapeCasts_S1x128_S128

/-- One layer: transform, aggregate over the edges, gate, add the input. -/
def layer (e : IVec S2x1600000 32) (x : FVec Ideal S100000x64 .f32) (w : FVec Ideal S64x128 .f32)
    (b : FVec Ideal S128 .f32) : FVec Ideal S100000x64 .f32 :=
  Cert.Spec.CB (aggOf e (Cert.Spec.MM x w)) (Cert.Spec.MM x w) (selfOf e) b x

/-- The network: three layers in a row. -/
def network (a0 : FVec Ideal S100000x64 .f32) (a1 : FVec Ideal S3x64x128 .f32) (a2 : FVec Ideal S3x128 .f32)
    (e : IVec S2x1600000 32) : FVec Ideal S100000x64 .f32 :=
  layer e (layer e (layer e a0 (weight0 a1) (bias0 a2)) (weight1 a1) (bias1 a2)) (weight2 a1) (bias2 a2)

end Cert.KernelIdeal.Terms

end
-- ==== Proof.KernelHost.lean ====
/-
  What the host operations between the device regions compute, read off the program one stretch at a time: from any
  contents W of the buffers, the buffers a later region or stretch reads hold the layer's terms of W's contents, and
  every buffer a stretch does not write keeps its contents.
-/
import proofs.«407175_j71511205479061_4_alg».proof.Proof.Gen.KernelIdeal.Launch
import proofs.«407175_j71511205479061_4_alg».proof.Proof.Terms
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.KernelIdeal.Terms

/-- The neighbours' aggregate from the edge endpoints and the edge weights as arrays: what one aggregation stretch
    computes from the buffers it reads. -/
def aggW (src dst : IVec S1600000 32) (coef : FVec Ideal S1600000 .f32) (h : FVec Ideal S100000x128 .f32) :
    FVec Ideal S100000x128 .f32 :=
  Host.scatterAdd scatter_S100000x128_S1600000x1_S1600000x128_1_0_0_1
    (broadcastInDim S100000x128 ![] bcast_S_S100000x128 (constant S_ .f32 0x00000000#32)) (col dst)
    (mulf (Host.gather gather_S100000x128_S1600000x1_S1600000x128_1_0_n_n_0_1_1128 h (col (wrap src)))
      (broadcastInDim S1600000x128 ![0, 1] bcast_S1600000x1_S1600000x128_0_1
        (broadcastInDim S1600000x1 ![0] bcast_S1600000_S1600000x1_0 coef)))

theorem aggOf_eq (e : IVec S2x1600000 32) (h : FVec Ideal S100000x128 .f32) :
    aggOf e h = aggW (srcOf e) (dstOf e) (coefOf e) h := rfl

variable (W : Valuation τ sig (Elt Ideal))

/-! ## Stretch 0: the edge endpoints, the normalisation, and the first layer's weight and bias -/

set_option maxHeartbeats 2000000 in
theorem s0_v1 : after (hostOps0 (F := Ideal)) W (Proc.devRef .tc main_v1)
    = srcOf (W (Proc.devRef .tc main_arg3)) := by
  simp only [hostOps0]; after_results_simp; rfl
set_option maxHeartbeats 2000000 in
theorem s0_v3 : after (hostOps0 (F := Ideal)) W (Proc.devRef .tc main_v3)
    = dstOf (W (Proc.devRef .tc main_arg3)) := by
  simp only [hostOps0]; after_results_simp; rfl
set_option maxHeartbeats 2000000 in
theorem s0_v30 : after (hostOps0 (F := Ideal)) W (Proc.devRef .tc main_v30)
    = coefOf (W (Proc.devRef .tc main_arg3)) := by
  simp only [hostOps0]; after_results_simp; rfl
set_option maxHeartbeats 2000000 in
theorem s0_v31 : after (hostOps0 (F := Ideal)) W (Proc.devRef .tc main_v31)
    = selfOf (W (Proc.devRef .tc main_arg3)) := by
  simp only [hostOps0]; after_results_simp; rfl
set_option maxHeartbeats 2000000 in
theorem s0_v33 : after (hostOps0 (F := Ideal)) W (Proc.devRef .tc main_v33)
    = weight0 (W (Proc.devRef .tc main_arg1)) := by
  simp only [hostOps0]; after_results_simp; rfl
set_option maxHeartbeats 2000000 in
theorem s0_v36 : after (hostOps0 (F := Ideal)) W (Proc.devRef .tc main_v36)
    = shapeCast S1x128 (bias0 (W (Proc.devRef .tc main_arg2))) shapeCasts_S128_S1x128 := by
  simp only [hostOps0]; after_results_simp; rfl
set_option maxHeartbeats 2000000 in
theorem s0_arg0 : after (hostOps0 (F := Ideal)) W (Proc.devRef .tc main_arg0) = W (Proc.devRef .tc main_arg0) := by
  simp only [hostOps0]; after_results_simp
set_option maxHeartbeats 2000000 in
theorem s0_arg1 : after (hostOps0 (F := Ideal)) W (Proc.devRef .tc main_arg1) = W (Proc.devRef .tc main_arg1) := by
  simp only [hostOps0]; after_results_simp
set_option maxHeartbeats 2000000 in
theorem s0_arg2 : after (hostOps0 (F := Ideal)) W (Proc.devRef .tc main_arg2) = W (Proc.devRef .tc main_arg2) := by
  simp only [hostOps0]; after_results_simp

/-! ## Stretch 1: one layer's aggregation over the edges, and the self-loop weights as a column -/

set_option maxHeartbeats 2000000 in
theorem s1_v50 : after (hostOps1 (F := Ideal)) W (Proc.devRef .tc main_v50)
    = aggW (W (Proc.devRef .tc main_v1)) (W (Proc.devRef .tc main_v3)) (W (Proc.devRef .tc main_v30)) (W (Proc.devRef .tc main_v37)) := by
  simp only [hostOps1]; after_results_simp; rfl
set_option maxHeartbeats 2000000 in
theorem s1_v51 : after (hostOps1 (F := Ideal)) W (Proc.devRef .tc main_v51)
    = shapeCast S100000x1 (W (Proc.devRef .tc main_v31)) shapeCasts_S100000_S100000x1 := by
  simp only [hostOps1]; after_results_simp; rfl
set_option maxHeartbeats 2000000 in
theorem s1_v37 : after (hostOps1 (F := Ideal)) W (Proc.devRef .tc main_v37) = W (Proc.devRef .tc main_v37) := by
  simp only [hostOps1]; after_results_simp
set_option maxHeartbeats 2000000 in
theorem s1_v36 : after (hostOps1 (F := Ideal)) W (Proc.devRef .tc main_v36) = W (Proc.devRef .tc main_v36) := by
  simp only [hostOps1]; after_results_simp
set_option maxHeartbeats 2000000 in
theorem s1_arg0 : after (hostOps1 (F := Ideal)) W (Proc.devRef .tc main_arg0) = W (Proc.devRef .tc main_arg0) := by
  simp only [hostOps1]; after_results_simp
set_option maxHeartbeats 2000000 in
theorem s1_v1 : after (hostOps1 (F := Ideal)) W (Proc.devRef .tc main_v1) = W (Proc.devRef .tc main_v1) := by
  simp only [hostOps1]; after_results_simp
set_option maxHeartbeats 2000000 in
theorem s1_v3 : after (hostOps1 (F := Ideal)) W (Proc.devRef .tc main_v3) = W (Proc.devRef .tc main_v3) := by
  simp only [hostOps1]; after_results_simp
set_option maxHeartbeats 2000000 in
theorem s1_v30 : after (hostOps1 (F := Ideal)) W (Proc.devRef .tc main_v30) = W (Proc.devRef .tc main_v30) := by
  simp only [hostOps1]; after_results_simp
set_option maxHeartbeats 2000000 in
theorem s1_v31 : after (hostOps1 (F := Ideal)) W (Proc.devRef .tc main_v31) = W (Proc.devRef .tc main_v31) := by
  simp only [hostOps1]; after_results_simp
set_option maxHeartbeats 2000000 in
theorem s1_arg1 : after (hostOps1 (F := Ideal)) W (Proc.devRef .tc main_arg1) = W (Proc.devRef .tc main_arg1) := by
  simp only [hostOps1]; after_results_simp
set_option maxHeartbeats 2000000 in
theorem s1_arg2 : after (hostOps1 (F := Ideal)) W (Proc.devRef .tc main_arg2) = W (Proc.devRef .tc main_arg2) := by
  simp only [hostOps1]; after_results_simp

/-! ## Stretch 2: layer 1's weight matrix and its bias as a row -/

set_option maxHeartbeats 2000000 in
theorem s2_v54 : after (hostOps2 (F := Ideal)) W (Proc.devRef .tc main_v54)
    = weight1 (W (Proc.devRef .tc main_arg1)) := by
  simp only [hostOps2]; after_results_simp; rfl
set_option maxHeartbeats 2000000 in
theorem s2_v57 : after (hostOps2 (F := Ideal)) W (Proc.devRef .tc main_v57)
    = shapeCast S1x128 (bias1 (W (Proc.devRef .tc main_arg2))) shapeCasts_S128_S1x128 := by
  simp only [hostOps2]; after_results_simp; rfl
set_option maxHeartbeats 2000000 in
theorem s2_v52 : after (hostOps2 (F := Ideal)) W (Proc.devRef .tc main_v52) = W (Proc.devRef .tc main_v52) := by
  simp only [hostOps2]; after_results_simp
set_option maxHeartbeats 2000000 in
theorem s2_v1 : after (hostOps2 (F := Ideal)) W (Proc.devRef .tc main_v1) = W (Proc.devRef .tc main_v1) := by
  simp only [hostOps2]; after_results_simp
set_option maxHeartbeats 2000000 in
theorem s2_v3 : after (hostOps2 (F := Ideal)) W (Proc.devRef .tc main_v3) = W (Proc.devRef .tc main_v3) := by
  simp only [hostOps2]; after_results_simp
set_option maxHeartbeats 2000000 in
theorem s2_v30 : after (hostOps2 (F := Ideal)) W (Proc.devRef .tc main_v30) = W (Proc.devRef .tc main_v30) := by
  simp only [hostOps2]; after_results_simp
set_option maxHeartbeats 2000000 in
theorem s2_v31 : after (hostOps2 (F := Ideal)) W (Proc.devRef .tc main_v31) = W (Proc.devRef .tc main_v31) := by
  simp only [hostOps2]; after_results_simp
set_option maxHeartbeats 2000000 in
theorem s2_arg1 : after (hostOps2 (F := Ideal)) W (Proc.devRef .tc main_arg1) = W (Proc.devRef .tc main_arg1) := by
  simp only [hostOps2]; after_results_simp
set_option maxHeartbeats 2000000 in
theorem s2_arg2 : after (hostOps2 (F := Ideal)) W (Proc.devRef .tc main_arg2) = W (Proc.devRef .tc main_arg2) := by
  simp only [hostOps2]; after_results_simp

/-! ## Stretch 3: one layer's aggregation over the edges, and the self-loop weights as a column -/

set_option maxHeartbeats 2000000 in
theorem s3_v71 : after (hostOps3 (F := Ideal)) W (Proc.devRef .tc main_v71)
    = aggW (W (Proc.devRef .tc main_v1)) (W (Proc.devRef .tc main_v3)) (W (Proc.devRef .tc main_v30)) (W (Proc.devRef .tc main_v58)) := by
  simp only [hostOps3]; after_results_simp; rfl
set_option maxHeartbeats 2000000 in
theorem s3_v72 : after (hostOps3 (F := Ideal)) W (Proc.devRef .tc main_v72)
    = shapeCast S100000x1 (W (Proc.devRef .tc main_v31)) shapeCasts_S100000_S100000x1 := by
  simp only [hostOps3]; after_results_simp; rfl
set_option maxHeartbeats 2000000 in
theorem s3_v58 : after (hostOps3 (F := Ideal)) W (Proc.devRef .tc main_v58) = W (Proc.devRef .tc main_v58) := by
  simp only [hostOps3]; after_results_simp
set_option maxHeartbeats 2000000 in
theorem s3_v57 : after (hostOps3 (F := Ideal)) W (Proc.devRef .tc main_v57) = W (Proc.devRef .tc main_v57) := by
  simp only [hostOps3]; after_results_simp
set_option maxHeartbeats 2000000 in
theorem s3_v52 : after (hostOps3 (F := Ideal)) W (Proc.devRef .tc main_v52) = W (Proc.devRef .tc main_v52) := by
  simp only [hostOps3]; after_results_simp
set_option maxHeartbeats 2000000 in
theorem s3_v1 : after (hostOps3 (F := Ideal)) W (Proc.devRef .tc main_v1) = W (Proc.devRef .tc main_v1) := by
  simp only [hostOps3]; after_results_simp
set_option maxHeartbeats 2000000 in
theorem s3_v3 : after (hostOps3 (F := Ideal)) W (Proc.devRef .tc main_v3) = W (Proc.devRef .tc main_v3) := by
  simp only [hostOps3]; after_results_simp
set_option maxHeartbeats 2000000 in
theorem s3_v30 : after (hostOps3 (F := Ideal)) W (Proc.devRef .tc main_v30) = W (Proc.devRef .tc main_v30) := by
  simp only [hostOps3]; after_results_simp
set_option maxHeartbeats 2000000 in
theorem s3_v31 : after (hostOps3 (F := Ideal)) W (Proc.devRef .tc main_v31) = W (Proc.devRef .tc main_v31) := by
  simp only [hostOps3]; after_results_simp
set_option maxHeartbeats 2000000 in
theorem s3_arg1 : after (hostOps3 (F := Ideal)) W (Proc.devRef .tc main_arg1) = W (Proc.devRef .tc main_arg1) := by
  simp only [hostOps3]; after_results_simp
set_option maxHeartbeats 2000000 in
theorem s3_arg2 : after (hostOps3 (F := Ideal)) W (Proc.devRef .tc main_arg2) = W (Proc.devRef .tc main_arg2) := by
  simp only [hostOps3]; after_results_simp

/-! ## Stretch 4: layer 2's weight matrix and its bias as a row -/

set_option maxHeartbeats 2000000 in
theorem s4_v75 : after (hostOps4 (F := Ideal)) W (Proc.devRef .tc main_v75)
    = weight2 (W (Proc.devRef .tc main_arg1)) := by
  simp only [hostOps4]; after_results_simp; rfl
set_option maxHeartbeats 2000000 in
theorem s4_v78 : after (hostOps4 (F := Ideal)) W (Proc.devRef .tc main_v78)
    = shapeCast S1x128 (bias2 (W (Proc.devRef .tc main_arg2))) shapeCasts_S128_S1x128 := by
  simp only [hostOps4]; after_results_simp; rfl
set_option maxHeartbeats 2000000 in
theorem s4_v73 : after (hostOps4 (F := Ideal)) W (Proc.devRef .tc main_v73) = W (Proc.devRef .tc main_v73) := by
  simp only [hostOps4]; after_results_simp
set_option maxHeartbeats 2000000 in
theorem s4_v1 : after (hostOps4 (F := Ideal)) W (Proc.devRef .tc main_v1) = W (Proc.devRef .tc main_v1) := by
  simp only [hostOps4]; after_results_simp
set_option maxHeartbeats 2000000 in
theorem s4_v3 : after (hostOps4 (F := Ideal)) W (Proc.devRef .tc main_v3) = W (Proc.devRef .tc main_v3) := by
  simp only [hostOps4]; after_results_simp
set_option maxHeartbeats 2000000 in
theorem s4_v30 : after (hostOps4 (F := Ideal)) W (Proc.devRef .tc main_v30) = W (Proc.devRef .tc main_v30) := by
  simp only [hostOps4]; after_results_simp
set_option maxHeartbeats 2000000 in
theorem s4_v31 : after (hostOps4 (F := Ideal)) W (Proc.devRef .tc main_v31) = W (Proc.devRef .tc main_v31) := by
  simp only [hostOps4]; after_results_simp
set_option maxHeartbeats 2000000 in
theorem s4_arg1 : after (hostOps4 (F := Ideal)) W (Proc.devRef .tc main_arg1) = W (Proc.devRef .tc main_arg1) := by
  simp only [hostOps4]; after_results_simp
set_option maxHeartbeats 2000000 in
theorem s4_arg2 : after (hostOps4 (F := Ideal)) W (Proc.devRef .tc main_arg2) = W (Proc.devRef .tc main_arg2) := by
  simp only [hostOps4]; after_results_simp

/-! ## Stretch 5: one layer's aggregation over the edges, and the self-loop weights as a column -/

set_option maxHeartbeats 2000000 in
theorem s5_v92 : after (hostOps5 (F := Ideal)) W (Proc.devRef .tc main_v92)
    = aggW (W (Proc.devRef .tc main_v1)) (W (Proc.devRef .tc main_v3)) (W (Proc.devRef .tc main_v30)) (W (Proc.devRef .tc main_v79)) := by
  simp only [hostOps5]; after_results_simp; rfl
set_option maxHeartbeats 2000000 in
theorem s5_v93 : after (hostOps5 (F := Ideal)) W (Proc.devRef .tc main_v93)
    = shapeCast S100000x1 (W (Proc.devRef .tc main_v31)) shapeCasts_S100000_S100000x1 := by
  simp only [hostOps5]; after_results_simp; rfl
set_option maxHeartbeats 2000000 in
theorem s5_v79 : after (hostOps5 (F := Ideal)) W (Proc.devRef .tc main_v79) = W (Proc.devRef .tc main_v79) := by
  simp only [hostOps5]; after_results_simp
set_option maxHeartbeats 2000000 in
theorem s5_v78 : after (hostOps5 (F := Ideal)) W (Proc.devRef .tc main_v78) = W (Proc.devRef .tc main_v78) := by
  simp only [hostOps5]; after_results_simp
set_option maxHeartbeats 2000000 in
theorem s5_v73 : after (hostOps5 (F := Ideal)) W (Proc.devRef .tc main_v73) = W (Proc.devRef .tc main_v73) := by
  simp only [hostOps5]; after_results_simp

end Cert.KernelIdeal.Host

end
-- ==== Proof.KernelLayout.lean ====
import proofs.«407175_j71511205479061_4_alg».proof.Proof.Gen.KernelIdeal
import Idealize.ShloMosaic.Lib.ValueIdx
import Idealize.ShloMosaic.Lib.Pipeline.Value
import Idealize.ShloMosaic.Lib.ValueLayout

/-!
# Two reshapes of a vector that only add a unit axis

A vector of a entries viewed as an a×1 column has, at (r, 0), the vector's entry r; viewed as a 1×a row it has, at
(0, n), the entry n. A reshape keeps every entry at its row-major position, and the positions agree:
r · 1 + 0 = r for the column and 0 · a + n = n for the row.
-/

noncomputable section

namespace Cert.KernelIdeal.Layout

open Idealize.ShloMosaic Idealize.ShloMosaic.TcCoe Idealize.SL.Sem Idealize.ShloMosaic.ValueIdx
open Cert.KernelIdeal Cert.KernelIdeal.Gen

/-- An [a] array viewed as an [a, 1] column reads, at (i, u), the operand at i, whatever the unit coordinate u:
    the row-major position of (i, u) in the column is i · 1 + u = i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The per-node coefficient vector viewed as a column: the column's entry (r, 0) is the vector's entry r. -/
theorem column_eq (sc : FVec Ideal S100000 .f32) :
    (fun i : S100000.Idx => (shapeCast S100000x1 sc shapeCasts_S100000_S100000x1 : FVec Ideal S100000x1 .f32) (ix2 (i 0) 0)) = sc := by
  funext i
  exact (shapeCast_a_a1_apply sc shapeCasts_S100000_S100000x1 (i 0) 0).trans (congrArg sc (eq_ix1 i).symm)

/-- The bias vector viewed as a row: the row's entry (0, n) is the vector's entry n. -/
theorem row_eq (b : FVec Ideal S128 .f32) :
    (fun i : S128.Idx => (shapeCast S1x128 b shapeCasts_S128_S1x128 : FVec Ideal S1x128 .f32) (ix2 0 (i 0))) = b := by
  funext i
  exact (shapeCast_a_1a_apply b shapeCasts_S128_S1x128 0 (i 0)).trans (congrArg b (eq_ix1 i).symm)

end Cert.KernelIdeal.Layout

end
-- ==== Proof.LibMatmulPlain.lean ====
import Idealize.ShloMosaic.PureOps.Ideal
import Idealize.ShloMosaic.PureOps.Ideal.Laws
import Idealize.ShloMosaic.Lib.ValueIdx
import Mathlib.Algebra.BigOperators.Group.Finset.Basic

/-!
# The plain matrix product of the matrix unit, read at an index

For the dimension numbers of an M×K by K×N product (the left operand contracted on its axis 1, the right on its
axis 0, no batch axes), the matrix unit's product into an accumulator is, at (p, n), the accumulator there plus
the sum over q of lhs(p, q) · rhs(q, n) on the extended reals.
-/

noncomputable section

open scoped BigOperators

namespace Cert.MatmulPlain

open Idealize.ShloMosaic Idealize.ShloMosaic.ValueIdx

variable {M K N : Nat} (D : DotDims ⟨2, ![M, K]⟩ ⟨2, ![K, N]⟩ ⟨2, ![M, N]⟩)

/-- The one contracted extent is the left operand's extent on its axis 1. -/
private theorem contr_size_plain (hlc : D.lhsContracting = [1]) (h0 : 0 < D.contr.rank) :
    D.contr.size ⟨0, h0⟩ = K := by
  have hp : 0 < D.lhsContracting.length := by rw [hlc]; exact Nat.one_pos
  have hsz := D.size_contr 0 hp
  have hK : ∀ (l : List (Fin 2)) (h : 0 < l.length), l = [1] → (⟨2, ![M, K]⟩ : Shape).size l[0] = K := by
    intro l h e; subst e; rfl
  exact hsz.trans (hK _ hp hlc)

/-- On the left operand's axis 0, its one non-contracting axis and the result's first, the left index reads the
    result index's first coordinate. -/
theorem lhsIdx_val_zero (hln : D.lhsNonContracting = [0]) (hlb : D.lhsBatch = [])
    (j : (⟨2, ![M, N]⟩ : Shape).Idx) (k : D.contr.Idx) :
    (D.lhsIdx j k (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln])

/-- On the left operand's axis 1, the contracted one, the left index reads the contraction position's coordinate. -/
theorem lhsIdx_val_one (hlc : D.lhsContracting = [1]) (j : (⟨2, ![M, N]⟩ : Shape).Idx) (k : D.contr.Idx) :
    (D.lhsIdx j k (1 : Fin 2)).val = (k ⟨0, by rw [D.rank_contr, hlc]; exact Nat.one_pos⟩).val :=
  D.lhsIdx_val_of_single hlc j k

/-- On the right operand's axis 0, the contracted one, the right index reads the contraction position's coordinate. -/
theorem rhsIdx_val_zero (hrc : D.rhsContracting = [0]) (j : (⟨2, ![M, N]⟩ : Shape).Idx) (k : D.contr.Idx) :
    (D.rhsIdx j k (0 : Fin 2)).val = (k ⟨0, by rw [D.rank_contr, ← D.length_contracting, hrc]; exact Nat.one_pos⟩).val :=
  D.rhsIdx_val_of_single hrc j k

/-- On the right operand's axis 1, its one non-contracting axis and the result's second (after the left operand's
    one), the right index reads the result index's second coordinate. -/
theorem rhsIdx_val_one (hln : D.lhsNonContracting = [0]) (hrn : D.rhsNonContracting = [1]) (hlb : D.lhsBatch = [])
    (hrb : D.rhsBatch = []) (j : (⟨2, ![M, N]⟩ : Shape).Idx) (k : D.contr.Idx) :
    (D.rhsIdx j k (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln, hrn])

/-- THE PRODUCT READ AT (p, n): the accumulator's entry plus the sum over the contracted position q of
    lhs(p, q) · rhs(q, n). -/
theorem matmul_plain_apply (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul D prec lhs rhs acc (ix2 p n) = acc (ix2 p n) + ∑ q : Fin K, lhs (ix2 p q) * rhs (ix2 q n) := by
  have hr : D.contr.rank = 1 := by rw [DotDims.rank_contr, hlc]; rfl
  have hs : D.contr.size ⟨0, by omega⟩ = K := contr_size_plain D hlc (by omega)
  rw [Ideal.matmul_apply]
  congr 1
  -- the contraction index set is its one coordinate's range: re-index the sum through that bijection
  rw [← Equiv.sum_comp (contrEquiv1 D K hr hs).symm]
  refine Finset.sum_congr rfl fun q _ => ?_
  have hl : D.lhsIdx (ix2 p n) ((contrEquiv1 D K hr hs).symm q) = ix2 p q := by
    funext a
    match a with
    | ⟨0, _⟩ => exact Fin.ext (lhsIdx_val_zero D hln hlb (ix2 p n) _)
    | ⟨1, _⟩ => exact Fin.ext ((lhsIdx_val_one D hlc (ix2 p n) _).trans (contrEquiv1_symm_val D K hr hs q))
  have hrr : D.rhsIdx (ix2 p n) ((contrEquiv1 D K hr hs).symm q) = ix2 q n := by
    funext a
    match a with
    | ⟨0, _⟩ => exact Fin.ext ((rhsIdx_val_zero D hrc (ix2 p n) _).trans (contrEquiv1_symm_val D K hr hs q))
    | ⟨1, _⟩ => exact Fin.ext (rhsIdx_val_one D hln hrn hlb hrb (ix2 p n) _)
  rw [hl, hrr]

end Cert.MatmulPlain

end
-- ==== Proof.MatmulRegion0.lean ====
/-
  The feature transform of one layer, block by block: the device computes the product of the node features with the
  layer's weight matrix in ten row blocks of 10000 nodes, each block the product of that block's features with the
  whole 64 x 128 weight matrix. Entry (p, n) of a block's product is the sum over the 64 input channels q of
  feature (p, q) times weight (q, n); row p of block t is row 10000·t + p of the features; so what block t writes
  back is rows 10000·t … 10000·t + 9999 of the whole product, and the ten blocks fill the output array.
-/
import proofs.«407175_j71511205479061_4_alg».proof.Proof.Gen.KernelIdeal.Frame
import proofs.«407175_j71511205479061_4_alg».proof.Proof.Spec
import proofs.«407175_j71511205479061_4_alg».proof.Proof.LibMatmulPlain
import Idealize.ShloMosaic.Lib.Pipeline.Value

set_option maxRecDepth 16384

noncomputable section

open scoped BigOperators

namespace Cert.KernelIdeal.MatmulRegion0

open Idealize.ShloMosaic Idealize.ShloMosaic.TcCoe Idealize.SL.Sem Idealize.ShloMosaic.ValueIdx
open Cert.KernelIdeal Cert.KernelIdeal.Gen

/-! ## One block's product, entry by entry -/

/-- Entry (p, n) of what the body stores: the sum over the 64 input channels of the feature block's row p against the
    weight block's column n (the accumulator the product is added to is zero). -/
theorem product_at (x0 : FVec Ideal S10000x64 .f32) (x1 : FVec Ideal S64x128 .f32) (p : Fin 10000) (n : Fin 128) :
    k0_pay1 (F := Ideal) x0 x1 (ix2 p n) = ∑ q : Fin 64, x0 (ix2 p q) * x1 (ix2 q n) := by
  unfold k0_pay1
  simp only [shapeCast_self]
  refine (Cert.MatmulPlain.matmul_plain_apply dot_S10000x64_S64x128_S10000x128_1_0_0_1_n_n rfl rfl rfl rfl rfl rfl
    none x0 x1 _ p n).trans ?_
  rw [constant_apply, Ideal.ofBits_zero_f32, zero_add]

/-- A row block of the product is rows of the product: when row (y 0) of the feature block is row (i 0) of the
    features and column (y 1) of the weight block is column (i 1) of the weights, the block's product at y is the
    whole product at i. -/
theorem product_block_at (A : FVec Ideal S100000x64 .f32) (W : FVec Ideal S64x128 .f32)
    (x0 : FVec Ideal S10000x64 .f32) (x1 : FVec Ideal S64x128 .f32) (y : S10000x128.Idx) (i : S100000x128.Idx)
    (h0 : ∀ q : Fin 64, x0 (ix2 (y 0) q) = A (ix2 (i 0) q))
    (h1 : ∀ q : Fin 64, x1 (ix2 q (y 1)) = W (ix2 q (i 1))) :
    k0_pay1 (F := Ideal) x0 x1 y = Cert.Spec.MM A W i := by
  obtain ⟨p, n, rfl⟩ : ∃ (p : Fin 10000) (n : Fin 128), y = ix2 p n := ⟨y 0, y 1, eq_ix2 y⟩
  rw [product_at]
  show _ = ∑ q : Fin 64, A (ix2 (i 0) q) * W (ix2 q (i 1))
  exact Finset.sum_congr rfl fun q _ => by rw [← h0 q, ← h1 q]

/-! ## The blocks the body reads, as rows of the arrays the region finds -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the ten grid points: the feature block goes down the rows with the output block, the weight
    block and every column block index stay at zero, and the output's row block index is the point itself. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The feature block at point t is the rows of the features under the output's row block at t. -/
theorem features_block (c : Dev nD) (t : Fin cfg0.N) (y : S10000x64.Idx) (i : S100000x64.Idx)
    (h0 : (i 0).val = win0_2.index t (0 : Fin 2) * 10000 + (y 0).val) (h1 : (i 1).val = (y 1).val) :
    (iblk0 (F := Ideal) V c 0 t : FVec Ideal S10000x64 .f32) y = (V c main_arg0 : FVec Ideal S100000x64 .f32) i := by
  obtain ⟨e0, e1, -, -, -, -⟩ := index_maps t
  show V c main_arg0 (((cfg0.win 0).blk t).view.emb y) = V c main_arg0 i
  refine congrArg (V c main_arg0) (funext fun a => Fin.ext ?_)
  match a with
  | ⟨0, _⟩ => show win0_0.index t (0 : Fin 2) * 10000 + 1 * (y 0).val = (i 0).val; rw [h0, e0]; omega
  | ⟨1, _⟩ => show win0_0.index t (1 : Fin 2) * 64 + 1 * (y 1).val = (i 1).val; rw [h1, e1]; omega

/-- The weight block at every point is the whole weight matrix. -/
theorem weights_block (c : Dev nD) (t : Fin cfg0.N) (y : S64x128.Idx) (i : S64x128.Idx)
    (h0 : (i 0).val = (y 0).val) (h1 : (i 1).val = (y 1).val) :
    (iblk0 (F := Ideal) V c 1 t : FVec Ideal S64x128 .f32) y = (V c main_v33 : FVec Ideal S64x128 .f32) i := by
  obtain ⟨-, -, e2, e3, -, -⟩ := index_maps t
  show V c main_v33 (((cfg0.win 1).blk t).view.emb y) = V c main_v33 i
  refine congrArg (V c main_v33) (funext fun a => Fin.ext ?_)
  match a with
  | ⟨0, _⟩ => show win0_1.index t (0 : Fin 2) * 64 + 1 * (y 0).val = (i 0).val; rw [h0, e2]; omega
  | ⟨1, _⟩ => show win0_1.index t (1 : Fin 2) * 128 + 1 * (y 1).val = (i 1).val; rw [h1, e3]; omega

/-! ## From the blocks to the array -/

/-- What point t writes back is block t of the product of the features and the weights as the region finds them. -/
theorem written_back (c : Dev nD) (t : Fin cfg0.N) :
    (dat0 (F := Ideal) V c).flushed 2 t
      = ((cfg0.win 2).blk t).view.read (Elt Ideal) (Cert.Spec.MM (V c main_arg0) (V c main_v33)) := by
  show (cfg0.win 2).cut (grid0.coords t) ((dat0 (F := Ideal) V c).after 2 t) = _
  rw [after0_2]
  unfold out0_2
  rw [View.canon_unit_zero zero_offsets]
  simp only [View.ld_unit_zero (S := S10000x64) zero_offsets, View.ld_unit_zero (S := S64x128) zero_offsets]
  obtain ⟨-, -, -, -, -, e5⟩ := index_maps t
  funext j
  refine product_block_at (V c main_arg0) (V c main_v33) (iblk0 V c 0 t) (iblk0 V c 1 t)
    ((win0 2).xinj (grid0.coords t) j) (((cfg0.win 2).blk t).view.emb j) (fun q => ?_) (fun q => ?_)
  · refine features_block V c t _ _ ?_ rfl
    show win0_2.index t (0 : Fin 2) * 10000 + 1 * (j 0).val = win0_2.index t (0 : Fin 2) * 10000 + (j 0).val
    omega
  · refine weights_block V c t _ _ rfl ?_
    show win0_2.index t (1 : Fin 2) * 128 + 1 * (j 1).val = (j 1).val
    rw [e5]; omega

/-- An index of the output array is in point t's block iff each coordinate is in the block's range on its axis. -/
theorem mem_row_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v37).slice (win0_2.rect t)).set ↔ _
  rw [View.set_slice_whole, Rect.mem_set_unit]
  exact Iff.rfl

/-- The ten row blocks fill the output: row r lies in the block of point r / 10000. -/
theorem row_blocks_cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 10 := N_0
  have ht : (i 0).val / 10000 < cfg0.N := by rw [hN]; omega
  obtain ⟨-, -, -, -, e4, e5⟩ := index_maps ⟨(i 0).val / 10000, ht⟩
  have e4' : win0_2.index ⟨(i 0).val / 10000, ht⟩ (0 : Fin 2) = (i 0).val / 10000 := e4
  refine ⟨⟨(i 0).val / 10000, ht⟩, flush0_2 _, ?_⟩
  rw [mem_row_block]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4']; omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    rw [e5]; omega

/-- The output array after the region: the product of the features and the weights as the region finds them. -/
theorem final (c : Dev nD) :
    (dat0 (F := Ideal) V c).arrAt 2 cfg0.N = Cert.Spec.MM (V c main_arg0) (V c main_v33) :=
  (dat0 (F := Ideal) V c).arrAt_eq_of_cover 2 _ (fun t _ => written_back V c t) row_blocks_cover

end Cert.KernelIdeal.MatmulRegion0

end
-- ==== Proof.MatmulRegion2.lean ====
/-
  The feature transform of one layer, block by block: the device computes the product of the node features with the
  layer's weight matrix in ten row blocks of 10000 nodes, each block the product of that block's features with the
  whole 64 x 128 weight matrix. Entry (p, n) of a block's product is the sum over the 64 input channels q of
  feature (p, q) times weight (q, n); row p of block t is row 10000·t + p of the features; so what block t writes
  back is rows 10000·t … 10000·t + 9999 of the whole product, and the ten blocks fill the output array.
-/
import proofs.«407175_j71511205479061_4_alg».proof.Proof.Gen.KernelIdeal.Frame
import proofs.«407175_j71511205479061_4_alg».proof.Proof.Spec
import proofs.«407175_j71511205479061_4_alg».proof.Proof.LibMatmulPlain
import Idealize.ShloMosaic.Lib.Pipeline.Value

set_option maxRecDepth 16384

noncomputable section

open scoped BigOperators

namespace Cert.KernelIdeal.MatmulRegion2

open Idealize.ShloMosaic Idealize.ShloMosaic.TcCoe Idealize.SL.Sem Idealize.ShloMosaic.ValueIdx
open Cert.KernelIdeal Cert.KernelIdeal.Gen

/-! ## One block's product, entry by entry -/

/-- Entry (p, n) of what the body stores: the sum over the 64 input channels of the feature block's row p against the
    weight block's column n (the accumulator the product is added to is zero). -/
theorem product_at (x0 : FVec Ideal S10000x64 .f32) (x1 : FVec Ideal S64x128 .f32) (p : Fin 10000) (n : Fin 128) :
    k2_pay1 (F := Ideal) x0 x1 (ix2 p n) = ∑ q : Fin 64, x0 (ix2 p q) * x1 (ix2 q n) := by
  unfold k2_pay1
  simp only [shapeCast_self]
  refine (Cert.MatmulPlain.matmul_plain_apply dot_S10000x64_S64x128_S10000x128_1_0_0_1_n_n rfl rfl rfl rfl rfl rfl
    none x0 x1 _ p n).trans ?_
  rw [constant_apply, Ideal.ofBits_zero_f32, zero_add]

/-- A row block of the product is rows of the product: when row (y 0) of the feature block is row (i 0) of the
    features and column (y 1) of the weight block is column (i 1) of the weights, the block's product at y is the
    whole product at i. -/
theorem product_block_at (A : FVec Ideal S100000x64 .f32) (W : FVec Ideal S64x128 .f32)
    (x0 : FVec Ideal S10000x64 .f32) (x1 : FVec Ideal S64x128 .f32) (y : S10000x128.Idx) (i : S100000x128.Idx)
    (h0 : ∀ q : Fin 64, x0 (ix2 (y 0) q) = A (ix2 (i 0) q))
    (h1 : ∀ q : Fin 64, x1 (ix2 q (y 1)) = W (ix2 q (i 1))) :
    k2_pay1 (F := Ideal) x0 x1 y = Cert.Spec.MM A W i := by
  obtain ⟨p, n, rfl⟩ : ∃ (p : Fin 10000) (n : Fin 128), y = ix2 p n := ⟨y 0, y 1, eq_ix2 y⟩
  rw [product_at]
  show _ = ∑ q : Fin 64, A (ix2 (i 0) q) * W (ix2 q (i 1))
  exact Finset.sum_congr rfl fun q _ => by rw [← h0 q, ← h1 q]

/-! ## The blocks the body reads, as rows of the arrays the region finds -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the ten grid points: the feature block goes down the rows with the output block, the weight
    block and every column block index stay at zero, and the output's row block index is the point itself. -/
theorem index_maps : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The feature block at point t is the rows of the features under the output's row block at t. -/
theorem features_block (c : Dev nD) (t : Fin cfg2.N) (y : S10000x64.Idx) (i : S100000x64.Idx)
    (h0 : (i 0).val = win2_2.index t (0 : Fin 2) * 10000 + (y 0).val) (h1 : (i 1).val = (y 1).val) :
    (iblk2 (F := Ideal) V c 0 t : FVec Ideal S10000x64 .f32) y = (V c main_v52 : FVec Ideal S100000x64 .f32) i := by
  obtain ⟨e0, e1, -, -, -, -⟩ := index_maps t
  show V c main_v52 (((cfg2.win 0).blk t).view.emb y) = V c main_v52 i
  refine congrArg (V c main_v52) (funext fun a => Fin.ext ?_)
  match a with
  | ⟨0, _⟩ => show win2_0.index t (0 : Fin 2) * 10000 + 1 * (y 0).val = (i 0).val; rw [h0, e0]; omega
  | ⟨1, _⟩ => show win2_0.index t (1 : Fin 2) * 64 + 1 * (y 1).val = (i 1).val; rw [h1, e1]; omega

/-- The weight block at every point is the whole weight matrix. -/
theorem weights_block (c : Dev nD) (t : Fin cfg2.N) (y : S64x128.Idx) (i : S64x128.Idx)
    (h0 : (i 0).val = (y 0).val) (h1 : (i 1).val = (y 1).val) :
    (iblk2 (F := Ideal) V c 1 t : FVec Ideal S64x128 .f32) y = (V c main_v54 : FVec Ideal S64x128 .f32) i := by
  obtain ⟨-, -, e2, e3, -, -⟩ := index_maps t
  show V c main_v54 (((cfg2.win 1).blk t).view.emb y) = V c main_v54 i
  refine congrArg (V c main_v54) (funext fun a => Fin.ext ?_)
  match a with
  | ⟨0, _⟩ => show win2_1.index t (0 : Fin 2) * 64 + 1 * (y 0).val = (i 0).val; rw [h0, e2]; omega
  | ⟨1, _⟩ => show win2_1.index t (1 : Fin 2) * 128 + 1 * (y 1).val = (i 1).val; rw [h1, e3]; omega

/-! ## From the blocks to the array -/

/-- What point t writes back is block t of the product of the features and the weights as the region finds them. -/
theorem written_back (c : Dev nD) (t : Fin cfg2.N) :
    (dat2 (F := Ideal) V c).flushed 2 t
      = ((cfg2.win 2).blk t).view.read (Elt Ideal) (Cert.Spec.MM (V c main_v52) (V c main_v54)) := by
  show (cfg2.win 2).cut (grid2.coords t) ((dat2 (F := Ideal) V c).after 2 t) = _
  rw [after2_2]
  unfold out2_2
  rw [View.canon_unit_zero zero_offsets]
  simp only [View.ld_unit_zero (S := S10000x64) zero_offsets, View.ld_unit_zero (S := S64x128) zero_offsets]
  obtain ⟨-, -, -, -, -, e5⟩ := index_maps t
  funext j
  refine product_block_at (V c main_v52) (V c main_v54) (iblk2 V c 0 t) (iblk2 V c 1 t)
    ((win2 2).xinj (grid2.coords t) j) (((cfg2.win 2).blk t).view.emb j) (fun q => ?_) (fun q => ?_)
  · refine features_block V c t _ _ ?_ rfl
    show win2_2.index t (0 : Fin 2) * 10000 + 1 * (j 0).val = win2_2.index t (0 : Fin 2) * 10000 + (j 0).val
    omega
  · refine weights_block V c t _ _ rfl ?_
    show win2_2.index t (1 : Fin 2) * 128 + 1 * (j 1).val = (j 1).val
    rw [e5]; omega

/-- An index of the output array is in point t's block iff each coordinate is in the block's range on its axis. -/
theorem mem_row_block (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v58).slice (win2_2.rect t)).set ↔ _
  rw [View.set_slice_whole, Rect.mem_set_unit]
  exact Iff.rfl

/-- The ten row blocks fill the output: row r lies in the block of point r / 10000. -/
theorem row_blocks_cover (i : S100000x128.Idx) :
    ∃ t : Fin cfg2.N, (cfg2.win 2).flush t = true ∧ i ∈ ((cfg2.win 2).blk t).view.set := by
  have hi0 : (i 0).val < 100000 := idx2_lt0 i
  have hi1 : (i 1).val < 128 := idx2_lt1 i
  have hN : cfg2.N = 10 := N_2
  have ht : (i 0).val / 10000 < cfg2.N := by rw [hN]; omega
  obtain ⟨-, -, -, -, e4, e5⟩ := index_maps ⟨(i 0).val / 10000, ht⟩
  have e4' : win2_2.index ⟨(i 0).val / 10000, ht⟩ (0 : Fin 2) = (i 0).val / 10000 := e4
  refine ⟨⟨(i 0).val / 10000, ht⟩, flush2_2 _, ?_⟩
  rw [mem_row_block]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e4']; omega
  | ⟨1, _⟩ =>
    show win2_2.index ⟨(i 0).val / 10000, ht⟩ (1 : Fin 2) * 128 ≤ (i 1).val
      ∧ (i 1).val < win2_2.index ⟨(i 0).val / 10000, ht⟩ (1 : Fin 2) * 128 + 128
    rw [e5]; omega

/-- The output array after the region: the product of the features and the weights as the region finds them. -/
theorem final (c : Dev nD) :
    (dat2 (F := Ideal) V c).arrAt 2 cfg2.N = Cert.Spec.MM (V c main_v52) (V c main_v54) :=
  (dat2 (F := Ideal) V c).arrAt_eq_of_cover 2 _ (fun t _ => written_back V c t) row_blocks_cover

end Cert.KernelIdeal.MatmulRegion2

end
-- ==== Proof.MatmulRegion4.lean ====
/-
  The feature transform of one layer, block by block: the device computes the product of the node features with the
  layer's weight matrix in ten row blocks of 10000 nodes, each block the product of that block's features with the
  whole 64 x 128 weight matrix. Entry (p, n) of a block's product is the sum over the 64 input channels q of
  feature (p, q) times weight (q, n); row p of block t is row 10000·t + p of the features; so what block t writes
  back is rows 10000·t … 10000·t + 9999 of the whole product, and the ten blocks fill the output array.
-/
import proofs.«407175_j71511205479061_4_alg».proof.Proof.Gen.KernelIdeal.Frame
import proofs.«407175_j71511205479061_4_alg».proof.Proof.Spec
import proofs.«407175_j71511205479061_4_alg».proof.Proof.LibMatmulPlain
import Idealize.ShloMosaic.Lib.Pipeline.Value

set_option maxRecDepth 16384

noncomputable section

open scoped BigOperators

namespace Cert.KernelIdeal.MatmulRegion4

open Idealize.ShloMosaic Idealize.ShloMosaic.TcCoe Idealize.SL.Sem Idealize.ShloMosaic.ValueIdx
open Cert.KernelIdeal Cert.KernelIdeal.Gen

/-! ## One block's product, entry by entry -/

/-- Entry (p, n) of what the body stores: the sum over the 64 input channels of the feature block's row p against the
    weight block's column n (the accumulator the product is added to is zero). -/
theorem product_at (x0 : FVec Ideal S10000x64 .f32) (x1 : FVec Ideal S64x128 .f32) (p : Fin 10000) (n : Fin 128) :
    k4_pay1 (F := Ideal) x0 x1 (ix2 p n) = ∑ q : Fin 64, x0 (ix2 p q) * x1 (ix2 q n) := by
  unfold k4_pay1
  simp only [shapeCast_self]
  refine (Cert.MatmulPlain.matmul_plain_apply dot_S10000x64_S64x128_S10000x128_1_0_0_1_n_n rfl rfl rfl rfl rfl rfl
    none x0 x1 _ p n).trans ?_
  rw [constant_apply, Ideal.ofBits_zero_f32, zero_add]

/-- A row block of the product is rows of the product: when row (y 0) of the feature block is row (i 0) of the
    features and column (y 1) of the weight block is column (i 1) of the weights, the block's product at y is the
    whole product at i. -/
theorem product_block_at (A : FVec Ideal S100000x64 .f32) (W : FVec Ideal S64x128 .f32)
    (x0 : FVec Ideal S10000x64 .f32) (x1 : FVec Ideal S64x128 .f32) (y : S10000x128.Idx) (i : S100000x128.Idx)
    (h0 : ∀ q : Fin 64, x0 (ix2 (y 0) q) = A (ix2 (i 0) q))
    (h1 : ∀ q : Fin 64, x1 (ix2 q (y 1)) = W (ix2 q (i 1))) :
    k4_pay1 (F := Ideal) x0 x1 y = Cert.Spec.MM A W i := by
  obtain ⟨p, n, rfl⟩ : ∃ (p : Fin 10000) (n : Fin 128), y = ix2 p n := ⟨y 0, y 1, eq_ix2 y⟩
  rw [product_at]
  show _ = ∑ q : Fin 64, A (ix2 (i 0) q) * W (ix2 q (i 1))
  exact Finset.sum_congr rfl fun q _ => by rw [← h0 q, ← h1 q]

/-! ## The blocks the body reads, as rows of the arrays the region finds -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the ten grid points: the feature block goes down the rows with the output block, the weight
    block and every column block index stay at zero, and the output's row block index is the point itself. -/
theorem index_maps : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- The feature block at point t is the rows of the features under the output's row block at t. -/
theorem features_block (c : Dev nD) (t : Fin cfg4.N) (y : S10000x64.Idx) (i : S100000x64.Idx)
    (h0 : (i 0).val = win4_2.index t (0 : Fin 2) * 10000 + (y 0).val) (h1 : (i 1).val = (y 1).val) :
    (iblk4 (F := Ideal) V c 0 t : FVec Ideal S10000x64 .f32) y = (V c main_v73 : FVec Ideal S100000x64 .f32) i := by
  obtain ⟨e0, e1, -, -, -, -⟩ := index_maps t
  show V c main_v73 (((cfg4.win 0).blk t).view.emb y) = V c main_v73 i
  refine congrArg (V c main_v73) (funext fun a => Fin.ext ?_)
  match a with
  | ⟨0, _⟩ => show win4_0.index t (0 : Fin 2) * 10000 + 1 * (y 0).val = (i 0).val; rw [h0, e0]; omega
  | ⟨1, _⟩ => show win4_0.index t (1 : Fin 2) * 64 + 1 * (y 1).val = (i 1).val; rw [h1, e1]; omega

/-- The weight block at every point is the whole weight matrix. -/
theorem weights_block (c : Dev nD) (t : Fin cfg4.N) (y : S64x128.Idx) (i : S64x128.Idx)
    (h0 : (i 0).val = (y 0).val) (h1 : (i 1).val = (y 1).val) :
    (iblk4 (F := Ideal) V c 1 t : FVec Ideal S64x128 .f32) y = (V c main_v75 : FVec Ideal S64x128 .f32) i := by
  obtain ⟨-, -, e2, e3, -, -⟩ := index_maps t
  show V c main_v75 (((cfg4.win 1).blk t).view.emb y) = V c main_v75 i
  refine congrArg (V c main_v75) (funext fun a => Fin.ext ?_)
  match a with
  | ⟨0, _⟩ => show win4_1.index t (0 : Fin 2) * 64 + 1 * (y 0).val = (i 0).val; rw [h0, e2]; omega
  | ⟨1, _⟩ => show win4_1.index t (1 : Fin 2) * 128 + 1 * (y 1).val = (i 1).val; rw [h1, e3]; omega

/-! ## From the blocks to the array -/

/-- What point t writes back is block t of the product of the features and the weights as the region finds them. -/
theorem written_back (c : Dev nD) (t : Fin cfg4.N) :
    (dat4 (F := Ideal) V c).flushed 2 t
      = ((cfg4.win 2).blk t).view.read (Elt Ideal) (Cert.Spec.MM (V c main_v73) (V c main_v75)) := by
  show (cfg4.win 2).cut (grid4.coords t) ((dat4 (F := Ideal) V c).after 2 t) = _
  rw [after4_2]
  unfold out4_2
  rw [View.canon_unit_zero zero_offsets]
  simp only [View.ld_unit_zero (S := S10000x64) zero_offsets, View.ld_unit_zero (S := S64x128) zero_offsets]
  obtain ⟨-, -, -, -, -, e5⟩ := index_maps t
  funext j
  refine product_block_at (V c main_v73) (V c main_v75) (iblk4 V c 0 t) (iblk4 V c 1 t)
    ((win4 2).xinj (grid4.coords t) j) (((cfg4.win 2).blk t).view.emb j) (fun q => ?_) (fun q => ?_)
  · refine features_block V c t _ _ ?_ rfl
    show win4_2.index t (0 : Fin 2) * 10000 + 1 * (j 0).val = win4_2.index t (0 : Fin 2) * 10000 + (j 0).val
    omega
  · refine weights_block V c t _ _ rfl ?_
    show win4_2.index t (1 : Fin 2) * 128 + 1 * (j 1).val = (j 1).val
    rw [e5]; omega

/-- An index of the output array is in point t's block iff each coordinate is in the block's range on its axis. -/
theorem mem_row_block (t : Fin cfg4.N) (i : S100000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v79).slice (win4_2.rect t)).set ↔ _
  rw [View.set_slice_whole, Rect.mem_set_unit]
  exact Iff.rfl

/-- The ten row blocks fill the output: row r lies in the block of point r / 10000. -/
theorem row_blocks_cover (i : S100000x128.Idx) :
    ∃ t : Fin cfg4.N, (cfg4.win 2).flush t = true ∧ i ∈ ((cfg4.win 2).blk t).view.set := by
  have hi0 : (i 0).val < 100000 := idx2_lt0 i
  have hi1 : (i 1).val < 128 := idx2_lt1 i
  have hN : cfg4.N = 10 := N_4
  have ht : (i 0).val / 10000 < cfg4.N := by rw [hN]; omega
  obtain ⟨-, -, -, -, e4, e5⟩ := index_maps ⟨(i 0).val / 10000, ht⟩
  have e4' : win4_2.index ⟨(i 0).val / 10000, ht⟩ (0 : Fin 2) = (i 0).val / 10000 := e4
  refine ⟨⟨(i 0).val / 10000, ht⟩, flush4_2 _, ?_⟩
  rw [mem_row_block]
  intro a
  match a with
  | ⟨0, _⟩ =>
    show win4_2.index ⟨(i 0).val / 10000, ht⟩ (0 : Fin 2) * 10000 ≤ (i 0).val
      ∧ (i 0).val < win4_2.index ⟨(i 0).val / 10000, ht⟩ (0 : Fin 2) * 10000 + 10000
    rw [e4']; omega
  | ⟨1, _⟩ =>
    show win4_2.index ⟨(i 0).val / 10000, ht⟩ (1 : Fin 2) * 128 ≤ (i 1).val
      ∧ (i 1).val < win4_2.index ⟨(i 0).val / 10000, ht⟩ (1 : Fin 2) * 128 + 128
    rw [e5]; omega

/-- The output array after the region: the product of the features and the weights as the region finds them. -/
theorem final (c : Dev nD) :
    (dat4 (F := Ideal) V c).arrAt 2 cfg4.N = Cert.Spec.MM (V c main_v73) (V c main_v75) :=
  (dat4 (F := Ideal) V c).arrAt_eq_of_cover 2 _ (fun t _ => written_back V c t) row_blocks_cover

end Cert.KernelIdeal.MatmulRegion4

end
-- ==== Proof.GatePayload.lean ====
/-
  The gate kernel's arithmetic, read at one entry of its output block.

  The body of the gate kernel receives a block of 5000 nodes: the neighbours' aggregate and the node's own transformed
  features (128 channels each), the self-loop weights as a column, the bias as a row, and the layer's input (64 channels).
  It forms pre = agg + h · column + row over the 128 channels, cuts pre into its first and its second 64 channels, and
  returns first · σ(second) + input. Read at node p of the block and channel j this is
      pre(p, j) · σ(pre(p, j + 64)) + input(p, j),   pre(p, n) = agg(p, n) + h(p, n) · column(p) + row(n),
  which is the specification's entry once each block entry is an entry of its array. The three layers' payloads differ
  only by a cast of the input block to its own shape, which is the identity.
-/
import proofs.«407175_j71511205479061_4_alg».proof.Proof.Gen.KernelIdeal.Skeleton
import proofs.«407175_j71511205479061_4_alg».proof.Proof.Spec
import Idealize.ShloMosaic.Lib.Pipeline.Value
import Idealize.ShloMosaic.Lib.ValueLayout
import Idealize.ShloMosaic.Lib.ValueIdx

noncomputable section

namespace Cert.KernelIdeal.GatePayload

open Idealize.ShloMosaic Idealize.ShloMosaic.ValueIdx Cert.KernelIdeal Cert.KernelIdeal.Gen

/-- A column of shape [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The logistic function applied to a vector, read at an index. -/
theorem logistic_apply {s : Shape} {φ : FTy} (a : FVec Ideal s φ) (i : s.Idx) : logistic a i = Ideal.logistic (a i) := rfl

/-- The pre-activation block: the aggregate, plus the transformed features scaled row by row by the self-loop column,
    plus the bias row on every row. -/
def pre (col : Vec Ideal S5000x1 .f32) (agg h : Vec Ideal S5000x128 .f32) (b : Vec Ideal S1x128 .f32) :
    FVec Ideal S5000x128 .f32 :=
  addf (addf agg (mulf h (broadcastTo S5000x128 col broadcasts_S5000x1_S5000x128)))
    (broadcastTo S5000x128 b broadcasts_S1x128_S5000x128)

/-- Entry (p, n) of the pre-activation block. -/
theorem pre_apply (col : Vec Ideal S5000x1 .f32) (agg h : Vec Ideal S5000x128 .f32) (b : Vec Ideal S1x128 .f32)
    (p : Fin 5000) (n : Fin 128) :
    pre col agg h b (ix2 p n) = agg (ix2 p n) + h (ix2 p n) * col (ix2 p (0 : Fin 1)) + b (ix2 (0 : Fin 1) n) := by
  unfold pre
  rw [addf_apply, addf_apply, mulf_apply, broadcastTo_a1_ab_apply, broadcastTo_1b_ab_apply]

/-- The gate of a pre-activation block with the residual: first half times the logistic of the second half, plus the
    input block. -/
def gate (q : FVec Ideal S5000x128 .f32) (x : Vec Ideal S5000x64 .f32) : FVec Ideal S5000x64 .f32 :=
  addf (mulf (extractStridedSlice S5000x64 ![0, 0] q slices_S5000x128_o0_0_S5000x64)
    (logistic (extractStridedSlice S5000x64 ![0, 64] q slices_S5000x128_o0_64_S5000x64))) x

/-- Entry (p, j) of the gated block: channel j of the first half, times the logistic of channel j of the second half,
    plus the input's entry. -/
theorem gate_apply (q : FVec Ideal S5000x128 .f32) (x : Vec Ideal S5000x64 .f32) (p : Fin 5000) (j : Fin 64) :
    gate q x (ix2 p j) = q (ix2 p (Cert.Spec.lo j)) * Ideal.logistic (q (ix2 p (Cert.Spec.hi j))) + x (ix2 p j) := by
  unfold gate
  rw [addf_apply, mulf_apply, logistic_apply,
    slice2_axis1_apply 0 q slices_S5000x128_o0_0_S5000x64 p j (Cert.Spec.lo j) (Nat.zero_add _).symm,
    slice2_axis1_apply 64 q slices_S5000x128_o0_64_S5000x64 p j (Cert.Spec.hi j) (Nat.add_comm _ _)]

/-- The first layer's payload is the gate of the pre-activation block. -/
theorem k1_pay1_eq (col : Vec Ideal S5000x1 .f32) (agg h : Vec Ideal S5000x128 .f32) (b : Vec Ideal S1x128 .f32)
    (x : Vec Ideal S5000x64 .f32) : k1_pay1 col agg h b x = gate (pre col agg h b) x := by
  unfold k1_pay1 gate pre
  simp only [shapeCast_self]

/-- The second layer's payload is the same function (its input block is first cast to its own shape). -/
theorem k3_pay1_eq (col : Vec Ideal S5000x1 .f32) (agg h : Vec Ideal S5000x128 .f32) (b : Vec Ideal S1x128 .f32)
    (x : Vec Ideal S5000x64 .f32) : k3_pay1 col agg h b x = gate (pre col agg h b) x := by
  unfold k3_pay1 gate pre
  simp only [shapeCast_self]

/-- The third layer's payload is the same function. -/
theorem k5_pay1_eq (col : Vec Ideal S5000x1 .f32) (agg h : Vec Ideal S5000x128 .f32) (b : Vec Ideal S1x128 .f32)
    (x : Vec Ideal S5000x64 .f32) : k5_pay1 col agg h b x = gate (pre col agg h b) x := by
  unfold k5_pay1 gate pre
  simp only [shapeCast_self]

/-- The gated block at (p, j) is the specification's entry (r, j) of the arrays, when row p of each block is row r of its
    array, the column block's entry p is the self-loop weight of node r, and the bias block's one row is the bias. -/
theorem gate_eq_cbAt (col : Vec Ideal S5000x1 .f32) (agg h : Vec Ideal S5000x128 .f32) (b : Vec Ideal S1x128 .f32)
    (x : Vec Ideal S5000x64 .f32)
    (AGG H : FVec Ideal ⟨2, ![100000, 128]⟩ .f32) (SC : FVec Ideal ⟨1, ![100000]⟩ .f32) (B : FVec Ideal ⟨1, ![128]⟩ .f32)
    (X : FVec Ideal ⟨2, ![100000, 64]⟩ .f32) (p : Fin 5000) (j : Fin 64) (r : Fin 100000)
    (hagg : ∀ n : Fin 128, agg (ix2 p n) = AGG (ix2 r n)) (hh : ∀ n : Fin 128, h (ix2 p n) = H (ix2 r n))
    (hcol : col (ix2 p (0 : Fin 1)) = SC (ix1 r)) (hb : ∀ n : Fin 128, b (ix2 (0 : Fin 1) n) = B (ix1 n))
    (hx : x (ix2 p j) = X (ix2 r j)) :
    gate (pre col agg h b) x (ix2 p j) = Cert.Spec.cbAt AGG H SC B X r j := by
  rw [gate_apply, pre_apply, pre_apply, hagg, hagg, hh, hh, hcol, hb, hb, hx]
  rfl

end Cert.KernelIdeal.GatePayload

end
-- ==== Proof.GateRegion1.lean ====
/-
  The first layer's gate region: what its output array holds after the region.

  The region walks the 100000 nodes in 20 blocks of 5000. At block t it reads rows 5000·t … 5000·t + 4999 of the
  aggregate, of the transformed features, of the self-loop column and of the layer input, and the whole bias row, and
  writes rows 5000·t … 5000·t + 4999 of the output. Row p of block t is node r = 5000·t + p, so the entry the block
  writes at (p, j) is the specification's entry (r, j) of the arrays as the region finds them; the 20 blocks cover every
  node, so the output array is the specification's array.
-/
import proofs.«407175_j71511205479061_4_alg».proof.Proof.Gen.KernelIdeal.Frame
import proofs.«407175_j71511205479061_4_alg».proof.Proof.Spec
import proofs.«407175_j71511205479061_4_alg».proof.Proof.GatePayload
import Idealize.ShloMosaic.Lib.Pipeline.Value

noncomputable section

namespace Cert.KernelIdeal.GateRegion1

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The zero offsets of the body's whole-buffer accesses. -/
theorem zero_off : (![0, 0] : Fin 2 → Nat) = fun _ => 0 := funext fun a => by fin_cases a <;> rfl

/-- The region has 20 points. -/
theorem point_lt (t : Fin cfg1.N) : t.val < 20 := lt_of_lt_of_eq t.isLt N_1

/-- The printed index maps over the 20 points: the row windows sit at block row t, column block 0; the bias window at
    block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## Each input block as rows of its array -/

/-- Block t of the aggregate: entry y is the array's entry at row 5000·t + y₀, the same column. -/
theorem read_agg (c : Dev nD) (t : Fin cfg1.N) (y : S5000x128.Idx) (k : S100000x128.Idx)
    (hk0 : (k 0).val = t.val * 5000 + (y 0).val) (hk1 : (k 1).val = (y 1).val) :
    (iblk1 V c 0 t : Vec Ideal S5000x128 .f32) y = (V c main_v50 : S100000x128.Idx → Elt Ideal .f32) k := by
  obtain ⟨e0, e1, -⟩ := block_index t
  unfold iblk1
  rw [View.read_apply]
  show V c main_v50 (((cfg1.win 0).blk t).view.emb y) = V c main_v50 k
  refine congrArg (V c main_v50) (funext fun a => Fin.ext ?_)
  match a with
  | ⟨0, _⟩ => show win1_0.index t (0 : Fin 2) * 5000 + 1 * (y 0).val = (k 0).val; omega
  | ⟨1, _⟩ => show win1_0.index t (1 : Fin 2) * 128 + 1 * (y 1).val = (k 1).val; omega

/-- Block t of the transformed features: entry y is the array's entry at row 5000·t + y₀, the same column. -/
theorem read_h (c : Dev nD) (t : Fin cfg1.N) (y : S5000x128.Idx) (k : S100000x128.Idx)
    (hk0 : (k 0).val = t.val * 5000 + (y 0).val) (hk1 : (k 1).val = (y 1).val) :
    (iblk1 V c 1 t : Vec Ideal S5000x128 .f32) y = (V c main_v37 : S100000x128.Idx → Elt Ideal .f32) k := by
  obtain ⟨-, -, e0, e1, -⟩ := block_index t
  unfold iblk1
  rw [View.read_apply]
  show V c main_v37 (((cfg1.win 1).blk t).view.emb y) = V c main_v37 k
  refine congrArg (V c main_v37) (funext fun a => Fin.ext ?_)
  match a with
  | ⟨0, _⟩ => show win1_1.index t (0 : Fin 2) * 5000 + 1 * (y 0).val = (k 0).val; omega
  | ⟨1, _⟩ => show win1_1.index t (1 : Fin 2) * 128 + 1 * (y 1).val = (k 1).val; omega

/-- Block t of the self-loop column: entry y is the column's entry at row 5000·t + y₀. -/
theorem read_col (c : Dev nD) (t : Fin cfg1.N) (y : S5000x1.Idx) (k : S100000x1.Idx)
    (hk0 : (k 0).val = t.val * 5000 + (y 0).val) (hk1 : (k 1).val = (y 1).val) :
    (iblk1 V c 2 t : Vec Ideal S5000x1 .f32) y = (V c main_v51 : S100000x1.Idx → Elt Ideal .f32) k := by
  obtain ⟨-, -, -, -, e0, e1, -⟩ := block_index t
  unfold iblk1
  rw [View.read_apply]
  show V c main_v51 (((cfg1.win 2).blk t).view.emb y) = V c main_v51 k
  refine congrArg (V c main_v51) (funext fun a => Fin.ext ?_)
  match a with
  | ⟨0, _⟩ => show win1_2.index t (0 : Fin 2) * 5000 + 1 * (y 0).val = (k 0).val; omega
  | ⟨1, _⟩ => show win1_2.index t (1 : Fin 2) * 1 + 1 * (y 1).val = (k 1).val; omega

/-- The bias window's block at every point is the whole bias row. -/
theorem read_bias (c : Dev nD) (t : Fin cfg1.N) (y : S1x128.Idx) (k : S1x128.Idx)
    (hk0 : (k 0).val = (y 0).val) (hk1 : (k 1).val = (y 1).val) :
    (iblk1 V c 3 t : Vec Ideal S1x128 .f32) y = (V c main_v36 : S1x128.Idx → Elt Ideal .f32) k := by
  obtain ⟨-, -, -, -, -, -, e0, e1, -⟩ := block_index t
  unfold iblk1
  rw [View.read_apply]
  show V c main_v36 (((cfg1.win 3).blk t).view.emb y) = V c main_v36 k
  refine congrArg (V c main_v36) (funext fun a => Fin.ext ?_)
  match a with
  | ⟨0, _⟩ => show win1_3.index t (0 : Fin 2) * 1 + 1 * (y 0).val = (k 0).val; omega
  | ⟨1, _⟩ => show win1_3.index t (1 : Fin 2) * 128 + 1 * (y 1).val = (k 1).val; omega

/-- Block t of the layer input: entry y is the array's entry at row 5000·t + y₀, the same column. -/
theorem read_x (c : Dev nD) (t : Fin cfg1.N) (y : S5000x64.Idx) (k : S100000x64.Idx)
    (hk0 : (k 0).val = t.val * 5000 + (y 0).val) (hk1 : (k 1).val = (y 1).val) :
    (iblk1 V c 4 t : Vec Ideal S5000x64 .f32) y = (V c main_arg0 : S100000x64.Idx → Elt Ideal .f32) k := by
  obtain ⟨-, -, -, -, -, -, -, -, e0, e1, -⟩ := block_index t
  unfold iblk1
  rw [View.read_apply]
  show V c main_arg0 (((cfg1.win 4).blk t).view.emb y) = V c main_arg0 k
  refine congrArg (V c main_arg0) (funext fun a => Fin.ext ?_)
  match a with
  | ⟨0, _⟩ => show win1_4.index t (0 : Fin 2) * 5000 + 1 * (y 0).val = (k 0).val; omega
  | ⟨1, _⟩ => show win1_4.index t (1 : Fin 2) * 64 + 1 * (y 1).val = (k 1).val; omega

/-! ## What a point writes back -/

/-- The specification's array of the arrays as the region finds them. -/
abbrev target (c : Dev nD) : FVec Ideal ⟨2, ![100000, 64]⟩ .f32 :=
  Cert.Spec.CB (V c main_v50) (V c main_v37) (fun i => V c main_v51 (ix2 (i 0) 0)) (fun i => V c main_v36 (ix2 0 (i 0))) (V c main_arg0)

/-- The payload of point t's blocks at (p, j) is the specification's entry at node 5000·t + p, channel j. -/
theorem point_entry (c : Dev nD) (t : Fin cfg1.N) (p : Fin 5000) (j : Fin 64) :
    (k1_pay1 (iblk1 V c 2 t) (iblk1 V c 0 t) (iblk1 V c 1 t) (iblk1 V c 3 t) (iblk1 V c 4 t) : Vec Ideal S5000x64 .f32) (ix2 p j)
      = target V c (ix2 (⟨t.val * 5000 + p.val, by have := point_lt t; have := p.isLt; omega⟩ : Fin 100000) j) := by
  rw [GatePayload.k1_pay1_eq]
  exact GatePayload.gate_eq_cbAt (iblk1 V c 2 t) (iblk1 V c 0 t) (iblk1 V c 1 t) (iblk1 V c 3 t) (iblk1 V c 4 t)
    (V c main_v50) (V c main_v37) (fun i => V c main_v51 (ix2 (i 0) 0)) (fun i => V c main_v36 (ix2 0 (i 0))) (V c main_arg0) p j
    ⟨t.val * 5000 + p.val, by have := point_lt t; have := p.isLt; omega⟩
    (fun n => read_agg V c t (ix2 p n) (ix2 _ n) rfl rfl)
    (fun n => read_h V c t (ix2 p n) (ix2 _ n) rfl rfl)
    (read_col V c t (ix2 p (0 : Fin 1)) (ix2 _ (0 : Fin 1)) rfl rfl)
    (fun n => read_bias V c t (ix2 (0 : Fin 1) n) (ix2 (0 : Fin 1) n) rfl rfl)
    (read_x V c t (ix2 p j) (ix2 _ j) rfl rfl)

/-- WHAT POINT t WRITES BACK is block t of the specification's array. -/
theorem flushed_eq (c : Dev nD) (t : Fin cfg1.N) :
    (dat1 V c).flushed 5 t = ((cfg1.win 5).blk t).view.read (Elt Ideal) (target V c) := by
  show (cfg1.win 5).cut (grid1.coords t) ((dat1 V c).after 5 t) = _
  rw [after1_5]
  unfold out1_5
  rw [View.canon_unit_zero zero_off]
  simp only [View.ld_unit_zero (S := S5000x1) zero_off, View.ld_unit_zero (S := S5000x128) zero_off,
    View.ld_unit_zero (S := S1x128) zero_off, View.ld_unit_zero (S := S5000x64) zero_off]
  obtain ⟨-, -, -, -, -, -, -, -, -, -, e0, e1⟩ := block_index t
  funext y
  show (k1_pay1 (iblk1 V c 2 t) (iblk1 V c 0 t) (iblk1 V c 1 t) (iblk1 V c 3 t) (iblk1 V c 4 t) : Vec Ideal S5000x64 .f32) y
    = target V c (((cfg1.win 5).blk t).view.emb y)
  have hy : (y : S5000x64.Idx) = ix2 (y 0) (y 1) := eq_ix2 y
  refine (congrArg _ hy).trans ((point_entry V c t (y 0) (y 1)).trans (congrArg (target V c) (funext fun a => Fin.ext ?_)))
  match a with
  | ⟨0, _⟩ => show t.val * 5000 + (y 0).val = win1_5.index t (0 : Fin 2) * 5000 + 1 * (y 0).val; omega
  | ⟨1, _⟩ => show (y 1).val = win1_5.index t (1 : Fin 2) * 64 + 1 * (y 1).val; omega

/-! ## The blocks cover the array -/

/-- An index of the output array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v52).slice (win1_5.rect t)).set ↔ _
  rw [View.set_slice_whole, Rect.mem_set_unit]
  exact Iff.rfl

/-- Node r lies in the block of point r / 5000, and every point writes its block back. -/
theorem cover (i : S100000x64.Idx) :
    ∃ t : Fin cfg1.N, (cfg1.win 5).flush t = true ∧ i ∈ ((cfg1.win 5).blk t).view.set := by
  have h0 : (i 0).val < 100000 := (i 0).isLt
  have h1 : (i 1).val < 64 := (i 1).isLt
  have hN : (i 0).val / 5000 < cfg1.N := lt_of_lt_of_eq (by omega : (i 0).val / 5000 < 20) N_1.symm
  obtain ⟨-, -, -, -, -, -, -, -, -, -, e0, e1⟩ := block_index ⟨(i 0).val / 5000, hN⟩
  have e0' : win1_5.index ⟨(i 0).val / 5000, hN⟩ (0 : Fin 2) = (i 0).val / 5000 := e0
  refine ⟨⟨(i 0).val / 5000, hN⟩, flush1_5 _, ?_⟩
  rw [mem_blk]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    omega
  | ⟨1, _⟩ =>
    show win1_5.index ⟨(i 0).val / 5000, hN⟩ (1 : Fin 2) * 64 ≤ (i 1).val ∧ (i 1).val < win1_5.index ⟨(i 0).val / 5000, hN⟩ (1 : Fin 2) * 64 + 64
    omega

/-- THE OUTPUT ARRAY after the region is the specification's array of the arrays as the region finds them. -/
theorem final (c : Dev nD) :
    (dat1 (F := Ideal) V c).arrAt 5 cfg1.N
      = Cert.Spec.CB (V c main_v50) (V c main_v37) (fun i => V c main_v51 (ix2 (i 0) 0)) (fun i => V c main_v36 (ix2 0 (i 0))) (V c main_arg0) :=
  (dat1 V c).arrAt_eq_of_cover 5 (target V c) (fun t _ => flushed_eq V c t) cover

end Cert.KernelIdeal.GateRegion1

end
-- ==== Proof.GateRegion3.lean ====
/-
  The second layer's gate region: what its output array holds after the region.

  The region walks the 100000 nodes in 20 blocks of 5000. At block t it reads rows 5000·t … 5000·t + 4999 of the
  aggregate, of the transformed features, of the self-loop column and of the layer input, and the whole bias row, and
  writes rows 5000·t … 5000·t + 4999 of the output. Row p of block t is node r = 5000·t + p, so the entry the block
  writes at (p, j) is the specification's entry (r, j) of the arrays as the region finds them; the 20 blocks cover every
  node, so the output array is the specification's array.
-/
import proofs.«407175_j71511205479061_4_alg».proof.Proof.Gen.KernelIdeal.Frame
import proofs.«407175_j71511205479061_4_alg».proof.Proof.Spec
import proofs.«407175_j71511205479061_4_alg».proof.Proof.GatePayload
import Idealize.ShloMosaic.Lib.Pipeline.Value

noncomputable section

namespace Cert.KernelIdeal.GateRegion3

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The zero offsets of the body's whole-buffer accesses. -/
theorem zero_off : (![0, 0] : Fin 2 → Nat) = fun _ => 0 := funext fun a => by fin_cases a <;> rfl

/-- The region has 20 points. -/
theorem point_lt (t : Fin cfg3.N) : t.val < 20 := lt_of_lt_of_eq t.isLt N_3

/-- The printed index maps over the 20 points: the row windows sit at block row t, column block 0; the bias window at
    block (0, 0). -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-! ## Each input block as rows of its array -/

/-- Block t of the aggregate: entry y is the array's entry at row 5000·t + y₀, the same column. -/
theorem read_agg (c : Dev nD) (t : Fin cfg3.N) (y : S5000x128.Idx) (k : S100000x128.Idx)
    (hk0 : (k 0).val = t.val * 5000 + (y 0).val) (hk1 : (k 1).val = (y 1).val) :
    (iblk3 V c 0 t : Vec Ideal S5000x128 .f32) y = (V c main_v71 : S100000x128.Idx → Elt Ideal .f32) k := by
  obtain ⟨e0, e1, -⟩ := block_index t
  unfold iblk3
  rw [View.read_apply]
  show V c main_v71 (((cfg3.win 0).blk t).view.emb y) = V c main_v71 k
  refine congrArg (V c main_v71) (funext fun a => Fin.ext ?_)
  match a with
  | ⟨0, _⟩ => show win3_0.index t (0 : Fin 2) * 5000 + 1 * (y 0).val = (k 0).val; omega
  | ⟨1, _⟩ => show win3_0.index t (1 : Fin 2) * 128 + 1 * (y 1).val = (k 1).val; omega

/-- Block t of the transformed features: entry y is the array's entry at row 5000·t + y₀, the same column. -/
theorem read_h (c : Dev nD) (t : Fin cfg3.N) (y : S5000x128.Idx) (k : S100000x128.Idx)
    (hk0 : (k 0).val = t.val * 5000 + (y 0).val) (hk1 : (k 1).val = (y 1).val) :
    (iblk3 V c 1 t : Vec Ideal S5000x128 .f32) y = (V c main_v58 : S100000x128.Idx → Elt Ideal .f32) k := by
  obtain ⟨-, -, e0, e1, -⟩ := block_index t
  unfold iblk3
  rw [View.read_apply]
  show V c main_v58 (((cfg3.win 1).blk t).view.emb y) = V c main_v58 k
  refine congrArg (V c main_v58) (funext fun a => Fin.ext ?_)
  match a with
  | ⟨0, _⟩ => show win3_1.index t (0 : Fin 2) * 5000 + 1 * (y 0).val = (k 0).val; omega
  | ⟨1, _⟩ => show win3_1.index t (1 : Fin 2) * 128 + 1 * (y 1).val = (k 1).val; omega

/-- Block t of the self-loop column: entry y is the column's entry at row 5000·t + y₀. -/
theorem read_col (c : Dev nD) (t : Fin cfg3.N) (y : S5000x1.Idx) (k : S100000x1.Idx)
    (hk0 : (k 0).val = t.val * 5000 + (y 0).val) (hk1 : (k 1).val = (y 1).val) :
    (iblk3 V c 2 t : Vec Ideal S5000x1 .f32) y = (V c main_v72 : S100000x1.Idx → Elt Ideal .f32) k := by
  obtain ⟨-, -, -, -, e0, e1, -⟩ := block_index t
  unfold iblk3
  rw [View.read_apply]
  show V c main_v72 (((cfg3.win 2).blk t).view.emb y) = V c main_v72 k
  refine congrArg (V c main_v72) (funext fun a => Fin.ext ?_)
  match a with
  | ⟨0, _⟩ => show win3_2.index t (0 : Fin 2) * 5000 + 1 * (y 0).val = (k 0).val; omega
  | ⟨1, _⟩ => show win3_2.index t (1 : Fin 2) * 1 + 1 * (y 1).val = (k 1).val; omega

/-- The bias window's block at every point is the whole bias row. -/
theorem read_bias (c : Dev nD) (t : Fin cfg3.N) (y : S1x128.Idx) (k : S1x128.Idx)
    (hk0 : (k 0).val = (y 0).val) (hk1 : (k 1).val = (y 1).val) :
    (iblk3 V c 3 t : Vec Ideal S1x128 .f32) y = (V c main_v57 : S1x128.Idx → Elt Ideal .f32) k := by
  obtain ⟨-, -, -, -, -, -, e0, e1, -⟩ := block_index t
  unfold iblk3
  rw [View.read_apply]
  show V c main_v57 (((cfg3.win 3).blk t).view.emb y) = V c main_v57 k
  refine congrArg (V c main_v57) (funext fun a => Fin.ext ?_)
  match a with
  | ⟨0, _⟩ => show win3_3.index t (0 : Fin 2) * 1 + 1 * (y 0).val = (k 0).val; omega
  | ⟨1, _⟩ => show win3_3.index t (1 : Fin 2) * 128 + 1 * (y 1).val = (k 1).val; omega

/-- Block t of the layer input: entry y is the array's entry at row 5000·t + y₀, the same column. -/
theorem read_x (c : Dev nD) (t : Fin cfg3.N) (y : S5000x64.Idx) (k : S100000x64.Idx)
    (hk0 : (k 0).val = t.val * 5000 + (y 0).val) (hk1 : (k 1).val = (y 1).val) :
    (iblk3 V c 4 t : Vec Ideal S5000x64 .f32) y = (V c main_v52 : S100000x64.Idx → Elt Ideal .f32) k := by
  obtain ⟨-, -, -, -, -, -, -, -, e0, e1, -⟩ := block_index t
  unfold iblk3
  rw [View.read_apply]
  show V c main_v52 (((cfg3.win 4).blk t).view.emb y) = V c main_v52 k
  refine congrArg (V c main_v52) (funext fun a => Fin.ext ?_)
  match a with
  | ⟨0, _⟩ => show win3_4.index t (0 : Fin 2) * 5000 + 1 * (y 0).val = (k 0).val; omega
  | ⟨1, _⟩ => show win3_4.index t (1 : Fin 2) * 64 + 1 * (y 1).val = (k 1).val; omega

/-! ## What a point writes back -/

/-- The specification's array of the arrays as the region finds them. -/
abbrev target (c : Dev nD) : FVec Ideal ⟨2, ![100000, 64]⟩ .f32 :=
  Cert.Spec.CB (V c main_v71) (V c main_v58) (fun i => V c main_v72 (ix2 (i 0) 0)) (fun i => V c main_v57 (ix2 0 (i 0))) (V c main_v52)

/-- The payload of point t's blocks at (p, j) is the specification's entry at node 5000·t + p, channel j. -/
theorem point_entry (c : Dev nD) (t : Fin cfg3.N) (p : Fin 5000) (j : Fin 64) :
    (k3_pay1 (iblk3 V c 2 t) (iblk3 V c 0 t) (iblk3 V c 1 t) (iblk3 V c 3 t) (iblk3 V c 4 t) : Vec Ideal S5000x64 .f32) (ix2 p j)
      = target V c (ix2 (⟨t.val * 5000 + p.val, by have := point_lt t; have := p.isLt; omega⟩ : Fin 100000) j) := by
  rw [GatePayload.k3_pay1_eq]
  exact GatePayload.gate_eq_cbAt (iblk3 V c 2 t) (iblk3 V c 0 t) (iblk3 V c 1 t) (iblk3 V c 3 t) (iblk3 V c 4 t)
    (V c main_v71) (V c main_v58) (fun i => V c main_v72 (ix2 (i 0) 0)) (fun i => V c main_v57 (ix2 0 (i 0))) (V c main_v52) p j
    ⟨t.val * 5000 + p.val, by have := point_lt t; have := p.isLt; omega⟩
    (fun n => read_agg V c t (ix2 p n) (ix2 _ n) rfl rfl)
    (fun n => read_h V c t (ix2 p n) (ix2 _ n) rfl rfl)
    (read_col V c t (ix2 p (0 : Fin 1)) (ix2 _ (0 : Fin 1)) rfl rfl)
    (fun n => read_bias V c t (ix2 (0 : Fin 1) n) (ix2 (0 : Fin 1) n) rfl rfl)
    (read_x V c t (ix2 p j) (ix2 _ j) rfl rfl)

/-- WHAT POINT t WRITES BACK is block t of the specification's array. -/
theorem flushed_eq (c : Dev nD) (t : Fin cfg3.N) :
    (dat3 V c).flushed 5 t = ((cfg3.win 5).blk t).view.read (Elt Ideal) (target V c) := by
  show (cfg3.win 5).cut (grid3.coords t) ((dat3 V c).after 5 t) = _
  rw [after3_5]
  unfold out3_5
  rw [View.canon_unit_zero zero_off]
  simp only [View.ld_unit_zero (S := S5000x1) zero_off, View.ld_unit_zero (S := S5000x128) zero_off,
    View.ld_unit_zero (S := S1x128) zero_off, View.ld_unit_zero (S := S5000x64) zero_off]
  obtain ⟨-, -, -, -, -, -, -, -, -, -, e0, e1⟩ := block_index t
  funext y
  show (k3_pay1 (iblk3 V c 2 t) (iblk3 V c 0 t) (iblk3 V c 1 t) (iblk3 V c 3 t) (iblk3 V c 4 t) : Vec Ideal S5000x64 .f32) y
    = target V c (((cfg3.win 5).blk t).view.emb y)
  have hy : (y : S5000x64.Idx) = ix2 (y 0) (y 1) := eq_ix2 y
  refine (congrArg _ hy).trans ((point_entry V c t (y 0) (y 1)).trans (congrArg (target V c) (funext fun a => Fin.ext ?_)))
  match a with
  | ⟨0, _⟩ => show t.val * 5000 + (y 0).val = win3_5.index t (0 : Fin 2) * 5000 + 1 * (y 0).val; omega
  | ⟨1, _⟩ => show (y 1).val = win3_5.index t (1 : Fin 2) * 64 + 1 * (y 1).val; omega

/-! ## The blocks cover the array -/

/-- An index of the output array is in point t's block iff each coordinate is in the block's range on its axis. -/
theorem mem_blk (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v73).slice (win3_5.rect t)).set ↔ _
  rw [View.set_slice_whole, Rect.mem_set_unit]
  exact Iff.rfl

/-- Node r lies in the block of point r / 5000, and every point writes its block back. -/
theorem cover (i : S100000x64.Idx) :
    ∃ t : Fin cfg3.N, (cfg3.win 5).flush t = true ∧ i ∈ ((cfg3.win 5).blk t).view.set := by
  have h0 : (i 0).val < 100000 := (i 0).isLt
  have h1 : (i 1).val < 64 := (i 1).isLt
  have hN : (i 0).val / 5000 < cfg3.N := lt_of_lt_of_eq (by omega : (i 0).val / 5000 < 20) N_3.symm
  obtain ⟨-, -, -, -, -, -, -, -, -, -, e0, e1⟩ := block_index ⟨(i 0).val / 5000, hN⟩
  have e0' : win3_5.index ⟨(i 0).val / 5000, hN⟩ (0 : Fin 2) = (i 0).val / 5000 := e0
  refine ⟨⟨(i 0).val / 5000, hN⟩, flush3_5 _, ?_⟩
  rw [mem_blk]
  intro a
  match a with
  | ⟨0, _⟩ =>
    show win3_5.index ⟨(i 0).val / 5000, hN⟩ (0 : Fin 2) * 5000 ≤ (i 0).val ∧ (i 0).val < win3_5.index ⟨(i 0).val / 5000, hN⟩ (0 : Fin 2) * 5000 + 5000
    omega
  | ⟨1, _⟩ =>
    show win3_5.index ⟨(i 0).val / 5000, hN⟩ (1 : Fin 2) * 64 ≤ (i 1).val ∧ (i 1).val < win3_5.index ⟨(i 0).val / 5000, hN⟩ (1 : Fin 2) * 64 + 64
    omega

/-- THE OUTPUT ARRAY after the region is the specification's array of the arrays as the region finds them. -/
theorem final (c : Dev nD) :
    (dat3 (F := Ideal) V c).arrAt 5 cfg3.N
      = Cert.Spec.CB (V c main_v71) (V c main_v58) (fun i => V c main_v72 (ix2 (i 0) 0)) (fun i => V c main_v57 (ix2 0 (i 0))) (V c main_v52) :=
  (dat3 V c).arrAt_eq_of_cover 5 (target V c) (fun t _ => flushed_eq V c t) cover

end Cert.KernelIdeal.GateRegion3

end
-- ==== Proof.GateRegion5.lean ====
/-
  The third layer's gate region: what its output array holds after the region.

  The region walks the 100000 nodes in 20 blocks of 5000. At block t it reads rows 5000·t … 5000·t + 4999 of the
  aggregate, of the transformed features, of the self-loop column and of the layer input, and the whole bias row, and
  writes rows 5000·t … 5000·t + 4999 of the output. Row p of block t is node r = 5000·t + p, so the entry the block
  writes at (p, j) is the specification's entry (r, j) of the arrays as the region finds them; the 20 blocks cover every
  node, so the output array is the specification's array.
-/
import proofs.«407175_j71511205479061_4_alg».proof.Proof.Gen.KernelIdeal.Frame
import proofs.«407175_j71511205479061_4_alg».proof.Proof.Spec
import proofs.«407175_j71511205479061_4_alg».proof.Proof.GatePayload
import Idealize.ShloMosaic.Lib.Pipeline.Value

noncomputable section

namespace Cert.KernelIdeal.GateRegion5

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The zero offsets of the body's whole-buffer accesses. -/
theorem zero_off : (![0, 0] : Fin 2 → Nat) = fun _ => 0 := funext fun a => by fin_cases a <;> rfl

/-- The region has 20 points. -/
theorem point_lt (t : Fin cfg5.N) : t.val < 20 := lt_of_lt_of_eq t.isLt N_5

/-- The printed index maps over the 20 points: the row windows sit at block row t, column block 0; the bias window at
    block (0, 0). -/
theorem block_index : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-! ## Each input block as rows of its array -/

/-- Block t of the aggregate: entry y is the array's entry at row 5000·t + y₀, the same column. -/
theorem read_agg (c : Dev nD) (t : Fin cfg5.N) (y : S5000x128.Idx) (k : S100000x128.Idx)
    (hk0 : (k 0).val = t.val * 5000 + (y 0).val) (hk1 : (k 1).val = (y 1).val) :
    (iblk5 V c 0 t : Vec Ideal S5000x128 .f32) y = (V c main_v92 : S100000x128.Idx → Elt Ideal .f32) k := by
  obtain ⟨e0, e1, -⟩ := block_index t
  unfold iblk5
  rw [View.read_apply]
  show V c main_v92 (((cfg5.win 0).blk t).view.emb y) = V c main_v92 k
  refine congrArg (V c main_v92) (funext fun a => Fin.ext ?_)
  match a with
  | ⟨0, _⟩ => show win5_0.index t (0 : Fin 2) * 5000 + 1 * (y 0).val = (k 0).val; omega
  | ⟨1, _⟩ => show win5_0.index t (1 : Fin 2) * 128 + 1 * (y 1).val = (k 1).val; omega

/-- Block t of the transformed features: entry y is the array's entry at row 5000·t + y₀, the same column. -/
theorem read_h (c : Dev nD) (t : Fin cfg5.N) (y : S5000x128.Idx) (k : S100000x128.Idx)
    (hk0 : (k 0).val = t.val * 5000 + (y 0).val) (hk1 : (k 1).val = (y 1).val) :
    (iblk5 V c 1 t : Vec Ideal S5000x128 .f32) y = (V c main_v79 : S100000x128.Idx → Elt Ideal .f32) k := by
  obtain ⟨-, -, e0, e1, -⟩ := block_index t
  unfold iblk5
  rw [View.read_apply]
  show V c main_v79 (((cfg5.win 1).blk t).view.emb y) = V c main_v79 k
  refine congrArg (V c main_v79) (funext fun a => Fin.ext ?_)
  match a with
  | ⟨0, _⟩ => show win5_1.index t (0 : Fin 2) * 5000 + 1 * (y 0).val = (k 0).val; omega
  | ⟨1, _⟩ => show win5_1.index t (1 : Fin 2) * 128 + 1 * (y 1).val = (k 1).val; omega

/-- Block t of the self-loop column: entry y is the column's entry at row 5000·t + y₀. -/
theorem read_col (c : Dev nD) (t : Fin cfg5.N) (y : S5000x1.Idx) (k : S100000x1.Idx)
    (hk0 : (k 0).val = t.val * 5000 + (y 0).val) (hk1 : (k 1).val = (y 1).val) :
    (iblk5 V c 2 t : Vec Ideal S5000x1 .f32) y = (V c main_v93 : S100000x1.Idx → Elt Ideal .f32) k := by
  obtain ⟨-, -, -, -, e0, e1, -⟩ := block_index t
  unfold iblk5
  rw [View.read_apply]
  show V c main_v93 (((cfg5.win 2).blk t).view.emb y) = V c main_v93 k
  refine congrArg (V c main_v93) (funext fun a => Fin.ext ?_)
  match a with
  | ⟨0, _⟩ => show win5_2.index t (0 : Fin 2) * 5000 + 1 * (y 0).val = (k 0).val; omega
  | ⟨1, _⟩ => show win5_2.index t (1 : Fin 2) * 1 + 1 * (y 1).val = (k 1).val; omega

/-- The bias window's block at every point is the whole bias row. -/
theorem read_bias (c : Dev nD) (t : Fin cfg5.N) (y : S1x128.Idx) (k : S1x128.Idx)
    (hk0 : (k 0).val = (y 0).val) (hk1 : (k 1).val = (y 1).val) :
    (iblk5 V c 3 t : Vec Ideal S1x128 .f32) y = (V c main_v78 : S1x128.Idx → Elt Ideal .f32) k := by
  obtain ⟨-, -, -, -, -, -, e0, e1, -⟩ := block_index t
  unfold iblk5
  rw [View.read_apply]
  show V c main_v78 (((cfg5.win 3).blk t).view.emb y) = V c main_v78 k
  refine congrArg (V c main_v78) (funext fun a => Fin.ext ?_)
  match a with
  | ⟨0, _⟩ => show win5_3.index t (0 : Fin 2) * 1 + 1 * (y 0).val = (k 0).val; omega
  | ⟨1, _⟩ => show win5_3.index t (1 : Fin 2) * 128 + 1 * (y 1).val = (k 1).val; omega

/-- Block t of the layer input: entry y is the array's entry at row 5000·t + y₀, the same column. -/
theorem read_x (c : Dev nD) (t : Fin cfg5.N) (y : S5000x64.Idx) (k : S100000x64.Idx)
    (hk0 : (k 0).val = t.val * 5000 + (y 0).val) (hk1 : (k 1).val = (y 1).val) :
    (iblk5 V c 4 t : Vec Ideal S5000x64 .f32) y = (V c main_v73 : S100000x64.Idx → Elt Ideal .f32) k := by
  obtain ⟨-, -, -, -, -, -, -, -, e0, e1, -⟩ := block_index t
  unfold iblk5
  rw [View.read_apply]
  show V c main_v73 (((cfg5.win 4).blk t).view.emb y) = V c main_v73 k
  refine congrArg (V c main_v73) (funext fun a => Fin.ext ?_)
  match a with
  | ⟨0, _⟩ => show win5_4.index t (0 : Fin 2) * 5000 + 1 * (y 0).val = (k 0).val; omega
  | ⟨1, _⟩ => show win5_4.index t (1 : Fin 2) * 64 + 1 * (y 1).val = (k 1).val; omega

/-! ## What a point writes back -/

/-- The specification's array of the arrays as the region finds them. -/
abbrev target (c : Dev nD) : FVec Ideal ⟨2, ![100000, 64]⟩ .f32 :=
  Cert.Spec.CB (V c main_v92) (V c main_v79) (fun i => V c main_v93 (ix2 (i 0) 0)) (fun i => V c main_v78 (ix2 0 (i 0))) (V c main_v73)

/-- The payload of point t's blocks at (p, j) is the specification's entry at node 5000·t + p, channel j. -/
theorem point_entry (c : Dev nD) (t : Fin cfg5.N) (p : Fin 5000) (j : Fin 64) :
    (k5_pay1 (iblk5 V c 2 t) (iblk5 V c 0 t) (iblk5 V c 1 t) (iblk5 V c 3 t) (iblk5 V c 4 t) : Vec Ideal S5000x64 .f32) (ix2 p j)
      = target V c (ix2 (⟨t.val * 5000 + p.val, by have := point_lt t; have := p.isLt; omega⟩ : Fin 100000) j) := by
  rw [GatePayload.k5_pay1_eq]
  exact GatePayload.gate_eq_cbAt (iblk5 V c 2 t) (iblk5 V c 0 t) (iblk5 V c 1 t) (iblk5 V c 3 t) (iblk5 V c 4 t)
    (V c main_v92) (V c main_v79) (fun i => V c main_v93 (ix2 (i 0) 0)) (fun i => V c main_v78 (ix2 0 (i 0))) (V c main_v73) p j
    ⟨t.val * 5000 + p.val, by have := point_lt t; have := p.isLt; omega⟩
    (fun n => read_agg V c t (ix2 p n) (ix2 _ n) rfl rfl)
    (fun n => read_h V c t (ix2 p n) (ix2 _ n) rfl rfl)
    (read_col V c t (ix2 p (0 : Fin 1)) (ix2 _ (0 : Fin 1)) rfl rfl)
    (fun n => read_bias V c t (ix2 (0 : Fin 1) n) (ix2 (0 : Fin 1) n) rfl rfl)
    (read_x V c t (ix2 p j) (ix2 _ j) rfl rfl)

/-- WHAT POINT t WRITES BACK is block t of the specification's array. -/
theorem flushed_eq (c : Dev nD) (t : Fin cfg5.N) :
    (dat5 V c).flushed 5 t = ((cfg5.win 5).blk t).view.read (Elt Ideal) (target V c) := by
  show (cfg5.win 5).cut (grid5.coords t) ((dat5 V c).after 5 t) = _
  rw [after5_5]
  unfold out5_5
  rw [View.canon_unit_zero zero_off]
  simp only [View.ld_unit_zero (S := S5000x1) zero_off, View.ld_unit_zero (S := S5000x128) zero_off,
    View.ld_unit_zero (S := S1x128) zero_off, View.ld_unit_zero (S := S5000x64) zero_off]
  obtain ⟨-, -, -, -, -, -, -, -, -, -, e0, e1⟩ := block_index t
  funext y
  show (k5_pay1 (iblk5 V c 2 t) (iblk5 V c 0 t) (iblk5 V c 1 t) (iblk5 V c 3 t) (iblk5 V c 4 t) : Vec Ideal S5000x64 .f32) y
    = target V c (((cfg5.win 5).blk t).view.emb y)
  have hy : (y : S5000x64.Idx) = ix2 (y 0) (y 1) := eq_ix2 y
  refine (congrArg _ hy).trans ((point_entry V c t (y 0) (y 1)).trans (congrArg (target V c) (funext fun a => Fin.ext ?_)))
  match a with
  | ⟨0, _⟩ => show t.val * 5000 + (y 0).val = win5_5.index t (0 : Fin 2) * 5000 + 1 * (y 0).val; omega
  | ⟨1, _⟩ => show (y 1).val = win5_5.index t (1 : Fin 2) * 64 + 1 * (y 1).val; omega

/-! ## The blocks cover the array -/

/-- An index of the output array is in point t's block iff each coordinate is in the block's range on its axis. -/
theorem mem_blk (t : Fin cfg5.N) (i : S100000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v94).slice (win5_5.rect t)).set ↔ _
  rw [View.set_slice_whole, Rect.mem_set_unit]
  exact Iff.rfl

/-- Node r lies in the block of point r / 5000, and every point writes its block back. -/
theorem cover (i : S100000x64.Idx) :
    ∃ t : Fin cfg5.N, (cfg5.win 5).flush t = true ∧ i ∈ ((cfg5.win 5).blk t).view.set := by
  have h0 : (i 0).val < 100000 := (i 0).isLt
  have h1 : (i 1).val < 64 := (i 1).isLt
  have hN : (i 0).val / 5000 < cfg5.N := lt_of_lt_of_eq (by omega : (i 0).val / 5000 < 20) N_5.symm
  obtain ⟨-, -, -, -, -, -, -, -, -, -, e0, e1⟩ := block_index ⟨(i 0).val / 5000, hN⟩
  have e0' : win5_5.index ⟨(i 0).val / 5000, hN⟩ (0 : Fin 2) = (i 0).val / 5000 := e0
  refine ⟨⟨(i 0).val / 5000, hN⟩, flush5_5 _, ?_⟩
  rw [mem_blk]
  intro a
  match a with
  | ⟨0, _⟩ =>
    show win5_5.index ⟨(i 0).val / 5000, hN⟩ (0 : Fin 2) * 5000 ≤ (i 0).val ∧ (i 0).val < win5_5.index ⟨(i 0).val / 5000, hN⟩ (0 : Fin 2) * 5000 + 5000
    omega
  | ⟨1, _⟩ =>
    show win5_5.index ⟨(i 0).val / 5000, hN⟩ (1 : Fin 2) * 64 ≤ (i 1).val ∧ (i 1).val < win5_5.index ⟨(i 0).val / 5000, hN⟩ (1 : Fin 2) * 64 + 64
    omega

/-- THE OUTPUT ARRAY after the region is the specification's array of the arrays as the region finds them. -/
theorem final (c : Dev nD) :
    (dat5 (F := Ideal) V c).arrAt 5 cfg5.N
      = Cert.Spec.CB (V c main_v92) (V c main_v79) (fun i => V c main_v93 (ix2 (i 0) 0)) (fun i => V c main_v78 (ix2 0 (i 0))) (V c main_v73) :=
  (dat5 V c).arrAt_eq_of_cover 5 (target V c) (fun t _ => flushed_eq V c t) cover

end Cert.KernelIdeal.GateRegion5

end
-- ==== Proof.KernelValue.lean ====
/-
  The kernel program's result as the network of its arguments. The buffers are followed through the program's
  twelve segments: a host stretch rewrites the buffers it writes and keeps the others, a device region leaves
  its output array at the layer's product or gate of its input arrays and every other buffer as it was. The
  edge endpoints, the edge weights, the self-loop weights and the stacked parameters are computed once and stay
  in their buffers to the end; each layer's features move from the previous layer's output buffer through the
  product and the aggregation to the gate.
-/
import proofs.«407175_j71511205479061_4_alg».proof.Proof.Gen.KernelIdeal.Frame
import proofs.«407175_j71511205479061_4_alg».proof.Proof.Terms
import proofs.«407175_j71511205479061_4_alg».proof.Proof.KernelHost
import proofs.«407175_j71511205479061_4_alg».proof.Proof.KernelLayout
import proofs.«407175_j71511205479061_4_alg».proof.Proof.MatmulRegion0
import proofs.«407175_j71511205479061_4_alg».proof.Proof.MatmulRegion2
import proofs.«407175_j71511205479061_4_alg».proof.Proof.MatmulRegion4
import proofs.«407175_j71511205479061_4_alg».proof.Proof.GateRegion1
import proofs.«407175_j71511205479061_4_alg».proof.Proof.GateRegion3
import proofs.«407175_j71511205479061_4_alg».proof.Proof.GateRegion5

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen Cert.KernelIdeal.Terms Cert.KernelIdeal.Host Cert.KernelIdeal.Layout

variable (m : (ℓ : Loc nD τ sig) → Buf (Elt Ideal) ℓ) (ρ : Dev nD → PrngReg) (c : Dev nD)

/-- The four argument arrays as launched: node features, stacked weights, stacked biases, edge list. -/
abbrev a0 : FVec Ideal S100000x64 .f32 := m ((c : Thread nD τ).loc main_arg0)
abbrev a1 : FVec Ideal S3x64x128 .f32 := m ((c : Thread nD τ).loc main_arg1)
abbrev a2 : FVec Ideal S3x128 .f32 := m ((c : Thread nD τ).loc main_arg2)
abbrev a3 : IVec S2x1600000 32 := m ((c : Thread nD τ).loc main_arg3)

/-- What stays put from the first stretch on: the edge endpoints, the edge and self-loop weights, and the stacked
    parameters, each in its buffer. -/
structure Base (Wv : Valuation τ sig (Elt Ideal)) : Prop where
  src : Wv (Proc.devRef .tc main_v1) = srcOf (a3 m c)
  dst : Wv (Proc.devRef .tc main_v3) = dstOf (a3 m c)
  coef : Wv (Proc.devRef .tc main_v30) = coefOf (a3 m c)
  self : Wv (Proc.devRef .tc main_v31) = selfOf (a3 m c)
  weights : Wv (Proc.devRef .tc main_arg1) = a1 m c
  biases : Wv (Proc.devRef .tc main_arg2) = a2 m c

variable {m c}

theorem Base.host1 {Wv : Valuation τ sig (Elt Ideal)} (h : Base m c Wv) : Base m c (StableHlo.after (hostOps1 (F := Ideal)) Wv) :=
  ⟨(s1_v1 Wv).trans h.src, (s1_v3 Wv).trans h.dst, (s1_v30 Wv).trans h.coef, (s1_v31 Wv).trans h.self,
   (s1_arg1 Wv).trans h.weights, (s1_arg2 Wv).trans h.biases⟩
theorem Base.host2 {Wv : Valuation τ sig (Elt Ideal)} (h : Base m c Wv) : Base m c (StableHlo.after (hostOps2 (F := Ideal)) Wv) :=
  ⟨(s2_v1 Wv).trans h.src, (s2_v3 Wv).trans h.dst, (s2_v30 Wv).trans h.coef, (s2_v31 Wv).trans h.self,
   (s2_arg1 Wv).trans h.weights, (s2_arg2 Wv).trans h.biases⟩
theorem Base.host3 {Wv : Valuation τ sig (Elt Ideal)} (h : Base m c Wv) : Base m c (StableHlo.after (hostOps3 (F := Ideal)) Wv) :=
  ⟨(s3_v1 Wv).trans h.src, (s3_v3 Wv).trans h.dst, (s3_v30 Wv).trans h.coef, (s3_v31 Wv).trans h.self,
   (s3_arg1 Wv).trans h.weights, (s3_arg2 Wv).trans h.biases⟩
theorem Base.host4 {Wv : Valuation τ sig (Elt Ideal)} (h : Base m c Wv) : Base m c (StableHlo.after (hostOps4 (F := Ideal)) Wv) :=
  ⟨(s4_v1 Wv).trans h.src, (s4_v3 Wv).trans h.dst, (s4_v30 Wv).trans h.coef, (s4_v31 Wv).trans h.self,
   (s4_arg1 Wv).trans h.weights, (s4_arg2 Wv).trans h.biases⟩

variable (m c)

/-! ## The first layer -/

theorem base1 : Base m c (W1 m ρ c) :=
  ⟨s0_v1 (W0 m ρ c), s0_v3 (W0 m ρ c), s0_v30 (W0 m ρ c), s0_v31 (W0 m ρ c), s0_arg1 (W0 m ρ c), s0_arg2 (W0 m ρ c)⟩

theorem base2 : Base m c (W2 m ρ c) :=
  have h := base1 m ρ c
  ⟨(W2_of_ne m ρ c main_v1 (by decide)).trans h.src, (W2_of_ne m ρ c main_v3 (by decide)).trans h.dst,
   (W2_of_ne m ρ c main_v30 (by decide)).trans h.coef, (W2_of_ne m ρ c main_v31 (by decide)).trans h.self,
   (W2_of_ne m ρ c main_arg1 (by decide)).trans h.weights, (W2_of_ne m ρ c main_arg2 (by decide)).trans h.biases⟩

/-- The first layer's transformed features, in the product region's output buffer. -/
theorem h_at2 : W2 m ρ c (Proc.devRef .tc main_v37) = Cert.Spec.MM (a0 m c) (weight0 (a1 m c)) := by
  refine (W2_arr m ρ c 2).trans ((MatmulRegion0.final (V1 m ρ) c).trans ?_)
  rw [show V1 m ρ c main_arg0 = a0 m c from s0_arg0 (W0 m ρ c),
    show V1 m ρ c main_v33 = weight0 (a1 m c) from s0_v33 (W0 m ρ c)]

theorem base3 : Base m c (W3 m ρ c) := (base2 m ρ c).host1

/-- The first layer's aggregate, after the first aggregation stretch. -/
theorem agg_at3 : W3 m ρ c (Proc.devRef .tc main_v50)
    = aggOf (a3 m c) (Cert.Spec.MM (a0 m c) (weight0 (a1 m c))) := by
  refine (s1_v50 (W2 m ρ c)).trans ?_
  rw [(base2 m ρ c).src, (base2 m ρ c).dst, (base2 m ρ c).coef, h_at2 m ρ c, aggOf_eq]

theorem col_at3 : W3 m ρ c (Proc.devRef .tc main_v51)
    = shapeCast S100000x1 (selfOf (a3 m c)) shapeCasts_S100000_S100000x1 := by
  refine (s1_v51 (W2 m ρ c)).trans ?_
  rw [(base2 m ρ c).self]

theorem h_at3 : W3 m ρ c (Proc.devRef .tc main_v37) = Cert.Spec.MM (a0 m c) (weight0 (a1 m c)) :=
  (s1_v37 (W2 m ρ c)).trans (h_at2 m ρ c)

theorem row_at3 : W3 m ρ c (Proc.devRef .tc main_v36)
    = shapeCast S1x128 (bias0 (a2 m c)) shapeCasts_S128_S1x128 :=
  (s1_v36 (W2 m ρ c)).trans ((W2_of_ne m ρ c main_v36 (by decide)).trans (s0_v36 (W0 m ρ c)))

theorem x_at3 : W3 m ρ c (Proc.devRef .tc main_arg0) = a0 m c :=
  (s1_arg0 (W2 m ρ c)).trans (((W2_arr m ρ c 0).trans (((dat0 (V1 m ρ) c).arrAt_in 0 rfl _).trans
    (A_eq0 (V1 m ρ) c 0))).trans (s0_arg0 (W0 m ρ c)))

/-- The first layer's output. -/
def x1 : FVec Ideal S100000x64 .f32 := layer (a3 m c) (a0 m c) (weight0 (a1 m c)) (bias0 (a2 m c))

theorem x1_at4 : W4 m ρ c (Proc.devRef .tc main_v52) = x1 m c := by
  refine (W4_arr m ρ c 5).trans ((GateRegion1.final (V3 m ρ) c).trans ?_)
  rw [show V3 m ρ c main_v50 = _ from agg_at3 m ρ c, show V3 m ρ c main_v37 = _ from h_at3 m ρ c,
    show V3 m ρ c main_v51 = _ from col_at3 m ρ c, show V3 m ρ c main_v36 = _ from row_at3 m ρ c,
    show V3 m ρ c main_arg0 = _ from x_at3 m ρ c, column_eq, row_eq]
  rfl

theorem base4 : Base m c (W4 m ρ c) :=
  have h := base3 m ρ c
  ⟨(W4_of_ne m ρ c main_v1 (by decide)).trans h.src, (W4_of_ne m ρ c main_v3 (by decide)).trans h.dst,
   (W4_of_ne m ρ c main_v30 (by decide)).trans h.coef, (W4_of_ne m ρ c main_v31 (by decide)).trans h.self,
   (W4_of_ne m ρ c main_arg1 (by decide)).trans h.weights, (W4_of_ne m ρ c main_arg2 (by decide)).trans h.biases⟩

/-! ## The second layer -/

theorem base5 : Base m c (W5 m ρ c) := (base4 m ρ c).host2

theorem w_at5 : W5 m ρ c (Proc.devRef .tc main_v54) = weight1 (a1 m c) := by
  refine (s2_v54 (W4 m ρ c)).trans ?_
  rw [(base4 m ρ c).weights]

theorem row_at5 : W5 m ρ c (Proc.devRef .tc main_v57)
    = shapeCast S1x128 (bias1 (a2 m c)) shapeCasts_S128_S1x128 := by
  refine (s2_v57 (W4 m ρ c)).trans ?_
  rw [(base4 m ρ c).biases]

theorem x_at5 : W5 m ρ c (Proc.devRef .tc main_v52) = x1 m c := (s2_v52 (W4 m ρ c)).trans (x1_at4 m ρ c)

theorem base6 : Base m c (W6 m ρ c) :=
  have h := base5 m ρ c
  ⟨(W6_of_ne m ρ c main_v1 (by decide)).trans h.src, (W6_of_ne m ρ c main_v3 (by decide)).trans h.dst,
   (W6_of_ne m ρ c main_v30 (by decide)).trans h.coef, (W6_of_ne m ρ c main_v31 (by decide)).trans h.self,
   (W6_of_ne m ρ c main_arg1 (by decide)).trans h.weights, (W6_of_ne m ρ c main_arg2 (by decide)).trans h.biases⟩

theorem h_at6 : W6 m ρ c (Proc.devRef .tc main_v58) = Cert.Spec.MM (x1 m c) (weight1 (a1 m c)) := by
  refine (W6_arr m ρ c 2).trans ((MatmulRegion2.final (V5 m ρ) c).trans ?_)
  rw [show V5 m ρ c main_v52 = _ from x_at5 m ρ c, show V5 m ρ c main_v54 = _ from w_at5 m ρ c]

theorem row_at6 : W6 m ρ c (Proc.devRef .tc main_v57)
    = shapeCast S1x128 (bias1 (a2 m c)) shapeCasts_S128_S1x128 :=
  (W6_of_ne m ρ c main_v57 (by decide)).trans (row_at5 m ρ c)

theorem x_at6 : W6 m ρ c (Proc.devRef .tc main_v52) = x1 m c :=
  ((W6_arr m ρ c 0).trans (((dat2 (V5 m ρ) c).arrAt_in 0 rfl _).trans (A_eq2 (V5 m ρ) c 0))).trans (x_at5 m ρ c)

theorem base7 : Base m c (W7 m ρ c) := (base6 m ρ c).host3

theorem agg_at7 : W7 m ρ c (Proc.devRef .tc main_v71)
    = aggOf (a3 m c) (Cert.Spec.MM (x1 m c) (weight1 (a1 m c))) := by
  refine (s3_v71 (W6 m ρ c)).trans ?_
  rw [(base6 m ρ c).src, (base6 m ρ c).dst, (base6 m ρ c).coef, h_at6 m ρ c, aggOf_eq]

theorem col_at7 : W7 m ρ c (Proc.devRef .tc main_v72)
    = shapeCast S100000x1 (selfOf (a3 m c)) shapeCasts_S100000_S100000x1 := by
  refine (s3_v72 (W6 m ρ c)).trans ?_
  rw [(base6 m ρ c).self]

theorem h_at7 : W7 m ρ c (Proc.devRef .tc main_v58) = Cert.Spec.MM (x1 m c) (weight1 (a1 m c)) :=
  (s3_v58 (W6 m ρ c)).trans (h_at6 m ρ c)

theorem row_at7 : W7 m ρ c (Proc.devRef .tc main_v57)
    = shapeCast S1x128 (bias1 (a2 m c)) shapeCasts_S128_S1x128 :=
  (s3_v57 (W6 m ρ c)).trans (row_at6 m ρ c)

theorem x_at7 : W7 m ρ c (Proc.devRef .tc main_v52) = x1 m c := (s3_v52 (W6 m ρ c)).trans (x_at6 m ρ c)

/-- The second layer's output. -/
def x2 : FVec Ideal S100000x64 .f32 := layer (a3 m c) (x1 m c) (weight1 (a1 m c)) (bias1 (a2 m c))

theorem x2_at8 : W8 m ρ c (Proc.devRef .tc main_v73) = x2 m c := by
  refine (W8_arr m ρ c 5).trans ((GateRegion3.final (V7 m ρ) c).trans ?_)
  rw [show V7 m ρ c main_v71 = _ from agg_at7 m ρ c, show V7 m ρ c main_v58 = _ from h_at7 m ρ c,
    show V7 m ρ c main_v72 = _ from col_at7 m ρ c, show V7 m ρ c main_v57 = _ from row_at7 m ρ c,
    show V7 m ρ c main_v52 = _ from x_at7 m ρ c, column_eq, row_eq]
  rfl

theorem base8 : Base m c (W8 m ρ c) :=
  have h := base7 m ρ c
  ⟨(W8_of_ne m ρ c main_v1 (by decide)).trans h.src, (W8_of_ne m ρ c main_v3 (by decide)).trans h.dst,
   (W8_of_ne m ρ c main_v30 (by decide)).trans h.coef, (W8_of_ne m ρ c main_v31 (by decide)).trans h.self,
   (W8_of_ne m ρ c main_arg1 (by decide)).trans h.weights, (W8_of_ne m ρ c main_arg2 (by decide)).trans h.biases⟩

/-! ## The third layer -/

theorem base9 : Base m c (W9 m ρ c) := (base8 m ρ c).host4

theorem w_at9 : W9 m ρ c (Proc.devRef .tc main_v75) = weight2 (a1 m c) := by
  refine (s4_v75 (W8 m ρ c)).trans ?_
  rw [(base8 m ρ c).weights]

theorem row_at9 : W9 m ρ c (Proc.devRef .tc main_v78)
    = shapeCast S1x128 (bias2 (a2 m c)) shapeCasts_S128_S1x128 := by
  refine (s4_v78 (W8 m ρ c)).trans ?_
  rw [(base8 m ρ c).biases]

theorem x_at9 : W9 m ρ c (Proc.devRef .tc main_v73) = x2 m c := (s4_v73 (W8 m ρ c)).trans (x2_at8 m ρ c)

theorem base10 : Base m c (W10 m ρ c) :=
  have h := base9 m ρ c
  ⟨(W10_of_ne m ρ c main_v1 (by decide)).trans h.src, (W10_of_ne m ρ c main_v3 (by decide)).trans h.dst,
   (W10_of_ne m ρ c main_v30 (by decide)).trans h.coef, (W10_of_ne m ρ c main_v31 (by decide)).trans h.self,
   (W10_of_ne m ρ c main_arg1 (by decide)).trans h.weights, (W10_of_ne m ρ c main_arg2 (by decide)).trans h.biases⟩

theorem h_at10 : W10 m ρ c (Proc.devRef .tc main_v79) = Cert.Spec.MM (x2 m c) (weight2 (a1 m c)) := by
  refine (W10_arr m ρ c 2).trans ((MatmulRegion4.final (V9 m ρ) c).trans ?_)
  rw [show V9 m ρ c main_v73 = _ from x_at9 m ρ c, show V9 m ρ c main_v75 = _ from w_at9 m ρ c]

theorem row_at10 : W10 m ρ c (Proc.devRef .tc main_v78)
    = shapeCast S1x128 (bias2 (a2 m c)) shapeCasts_S128_S1x128 :=
  (W10_of_ne m ρ c main_v78 (by decide)).trans (row_at9 m ρ c)

theorem x_at10 : W10 m ρ c (Proc.devRef .tc main_v73) = x2 m c :=
  ((W10_arr m ρ c 0).trans (((dat4 (V9 m ρ) c).arrAt_in 0 rfl _).trans (A_eq4 (V9 m ρ) c 0))).trans (x_at9 m ρ c)

theorem agg_at11 : W11 m ρ c (Proc.devRef .tc main_v92)
    = aggOf (a3 m c) (Cert.Spec.MM (x2 m c) (weight2 (a1 m c))) := by
  refine (s5_v92 (W10 m ρ c)).trans ?_
  rw [(base10 m ρ c).src, (base10 m ρ c).dst, (base10 m ρ c).coef, h_at10 m ρ c, aggOf_eq]

theorem col_at11 : W11 m ρ c (Proc.devRef .tc main_v93)
    = shapeCast S100000x1 (selfOf (a3 m c)) shapeCasts_S100000_S100000x1 := by
  refine (s5_v93 (W10 m ρ c)).trans ?_
  rw [(base10 m ρ c).self]

theorem h_at11 : W11 m ρ c (Proc.devRef .tc main_v79) = Cert.Spec.MM (x2 m c) (weight2 (a1 m c)) :=
  (s5_v79 (W10 m ρ c)).trans (h_at10 m ρ c)

theorem row_at11 : W11 m ρ c (Proc.devRef .tc main_v78)
    = shapeCast S1x128 (bias2 (a2 m c)) shapeCasts_S128_S1x128 :=
  (s5_v78 (W10 m ρ c)).trans (row_at10 m ρ c)

theorem x_at11 : W11 m ρ c (Proc.devRef .tc main_v73) = x2 m c := (s5_v73 (W10 m ρ c)).trans (x_at10 m ρ c)

/-- The kernel program's result buffer at the last boundary: the network of the arguments. -/
theorem result_eq : W12 m ρ c (Proc.devRef .tc main_v94) = network (a0 m c) (a1 m c) (a2 m c) (a3 m c) := by
  refine (W12_arr m ρ c 5).trans ((GateRegion5.final (V11 m ρ) c).trans ?_)
  rw [show V11 m ρ c main_v92 = _ from agg_at11 m ρ c, show V11 m ρ c main_v79 = _ from h_at11 m ρ c,
    show V11 m ρ c main_v93 = _ from col_at11 m ρ c, show V11 m ρ c main_v78 = _ from row_at11 m ρ c,
    show V11 m ρ c main_v73 = _ from x_at11 m ρ c, column_eq, row_eq]
  rfl

end Cert.KernelIdeal.Value

end
-- ==== Proof.LibDotPlain.lean ====
import Idealize.ShloMosaic.PureOps.Ideal
import Idealize.ShloMosaic.PureOps.Ideal.Laws
import Idealize.ShloMosaic.Lib.ValueIdx
import Mathlib.Algebra.BigOperators.Group.Finset.Basic
import proofs.«407175_j71511205479061_4_alg».proof.Proof.LibMatmulPlain

/-!
# The host's plain matrix product, read at an index

For the dimension numbers of an M×K by K×N product (the left operand contracted on its axis 1, the right on its
axis 0, no batch axes), the host's dot_general over the extended reals is, at (p, n), the sum over q of
lhs(p, q) · rhs(q, n). Over the extended reals the host's product is the same contraction as the matrix unit's
onto an accumulator that is zero everywhere, so the statement is the matrix unit's with the accumulator's
entry 0 dropped from the front of the sum.
-/

noncomputable section

open scoped BigOperators

namespace Cert.DotPlain

open Idealize.ShloMosaic Idealize.ShloMosaic.ValueIdx

variable {M K N : Nat} (D : DotDims ⟨2, ![M, K]⟩ ⟨2, ![K, N]⟩ ⟨2, ![M, N]⟩)

/-- THE HOST'S PRODUCT READ AT (p, n): the sum over the contracted position q of lhs(p, q) · rhs(q, n), whatever
    the precision mode and the schedule key. -/
theorem dot_plain_apply (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision) (sched : HostSchedule)
    (lhs : FVec Ideal ⟨2, ![M, K]⟩ φ₁) (rhs : FVec Ideal ⟨2, ![K, N]⟩ φ₂) (p : Fin M) (n : Fin N) :
    FloatOps.dotGeneral D prec sched lhs rhs (ix2 p n) = ∑ q : Fin K, lhs (ix2 p q) * rhs (ix2 q n) := by
  -- the host's product is the contraction onto the zero accumulator
  have hz : FloatOps.dotGeneral D prec sched lhs rhs (ix2 p n)
      = FloatOps.matmul D prec lhs rhs (fun _ => (0 : Ideal .f32)) (ix2 p n) := rfl
  rw [hz, Cert.MatmulPlain.matmul_plain_apply D hlc hrc hln hrn hlb hrb prec lhs rhs (fun _ => (0 : Ideal .f32)) p n]
  exact zero_add _

end Cert.DotPlain

end
-- ==== Proof.RefLayer.lean ====
import proofs.«407175_j71511205479061_4_alg».proof.Proof.Gen.ReferenceIdeal
import proofs.«407175_j71511205479061_4_alg».proof.Proof.Spec
import proofs.«407175_j71511205479061_4_alg».proof.Proof.LibMatmulPlain
import proofs.«407175_j71511205479061_4_alg».proof.Proof.LibDotPlain
import Idealize.ShloMosaic.Lib.ValueIdx
import Idealize.ShloMosaic.Lib.Pipeline.Value
import Idealize.ShloMosaic.Lib.ValueLayout
import Idealize.ShloMosaic.Lib.IdealHost

/-!
# One layer of the reference, read against the specification

The reference computes a layer of the gated graph convolution with whole-array host operations. Two stretches of
it are read here, index by index over the extended reals.

The feature transform is one dot_general of the 100000×64 node features by a 64×128 weight matrix, contracting
the features' axis 1 with the weights' axis 0: at (r, n) it is the sum over q of l(r, q) · w(q, n).

The gate with its residual is sixteen operations: the per-node coefficient (a vector of 100000 entries) is made a
column and spread over the 128 channels, the bias (128 entries) is made a row and spread over the nodes, so that
pre = agg + h · coefficient + bias entry by entry; the two slices cut pre into its channels 0..63 and 64..127;
and 1 / (1 + exp(−gate half)) is the logistic function by its definition. So output channel j of node r is
pre(r, j) · σ(pre(r, j + 64)) + x(r, j).
-/

noncomputable section

namespace Cert.ReferenceIdeal.Layer

open Idealize.ShloMosaic Idealize.ShloMosaic.TcCoe Idealize.SL.Sem Idealize.ShloMosaic.ValueIdx
open Cert.ReferenceIdeal Cert.ReferenceIdeal.Gen

/-! ## Broadcasts between a vector, a column, a row and a matrix, read at an index -/

section Broadcasts
variable {α : Type}

/-- An [a] array broadcast along axis 0 to an [a, 1] column reads, at (p, u), the operand at p. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A [b] array broadcast along axis 1 to a [1, b] row reads, at (u, c), the operand at c. -/
theorem broadcastInDim_b_1b_apply {b : ℕ} (v : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- An [a, 1] column broadcast over the columns of an [a, b] matrix reads, at (p, c), the column's entry p. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A [1, b] row broadcast down the rows of an [a, b] matrix reads, at (p, c), the row's entry c. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Broadcasts

/-! ## The gate's two ingredients as the host builds them -/

/-- The pre-activation array as the host builds it: the aggregate, plus the transformed features scaled row by row
    by the per-node coefficient (a vector made a column, then spread over the channels), plus the bias (a vector
    made a row, then spread over the nodes). -/
abbrev hostPre (agg h : FVec Ideal S100000x128 .f32) (sc : FVec Ideal S100000 .f32) (b : FVec Ideal S128 .f32) :
    FVec Ideal S100000x128 .f32 :=
  addf (addf agg (mulf h (broadcastInDim S100000x128 ![0, 1] bcast_S100000x1_S100000x128_0_1 (broadcastInDim S100000x1 ![0] bcast_S100000_S100000x1_0 sc)))) (broadcastInDim S100000x128 ![0, 1] bcast_S1x128_S100000x128_0_1 (broadcastInDim S1x128 ![1] bcast_S128_S1x128_1 b))

/-- Entry (r, n) of the host's pre-activation array is the specification's pre-activation of node r at channel n. -/
theorem hostPre_apply (agg h : FVec Ideal S100000x128 .f32) (sc : FVec Ideal S100000 .f32) (b : FVec Ideal S128 .f32)
    (r : Fin 100000) (n : Fin 128) : hostPre agg h sc b (ix2 r n) = Cert.Spec.preAt agg h sc b r n := by
  show agg (ix2 r n)
      + h (ix2 r n) * broadcastInDim S100000x128 ![0, 1] bcast_S100000x1_S100000x128_0_1 (broadcastInDim S100000x1 ![0] bcast_S100000_S100000x1_0 sc) (ix2 r n)
      + broadcastInDim S100000x128 ![0, 1] bcast_S1x128_S100000x128_0_1 (broadcastInDim S1x128 ![1] bcast_S128_S1x128_1 b) (ix2 r n)
    = agg (ix2 r n) + h (ix2 r n) * sc (ix1 r) + b (ix1 n)
  rw [broadcastInDim_a1_ab_apply, broadcastInDim_a_a1_apply, broadcastInDim_1b_ab_apply, broadcastInDim_b_1b_apply]

/-- The constant one spread over the 64 output channels of every node. -/
abbrev hostOne : FVec Ideal S100000x64 .f32 :=
  broadcastInDim S100000x64 ![] bcast_S_S100000x64 (constant (F := Ideal) S_ .f32 0x3F800000#32)

/-- Every entry of that array is the extended real one: the word 0x3F800000 is the f32 pattern of 1. -/
theorem hostOne_apply (i : S100000x64.Idx) : hostOne i = 1 := by
  show broadcastInDim S100000x64 ![] bcast_S_S100000x64 (constant (F := Ideal) S_ .f32 0x3F800000#32) i = 1
  rw [broadcastInDim_scalar_apply, constant_apply, Ideal.ofBits_one_f32]

/-- THE GATE WITH ITS RESIDUAL, as the host's sixteen operations build it, is the specification's: at (r, j) the
    two slices read the pre-activation at channels j and j + 64, and one divided by one plus the exponential of the
    negated gate half is by definition the logistic function of it. -/
theorem gate_eq (agg h : FVec Ideal S100000x128 .f32) (sc : FVec Ideal S100000 .f32) (b : FVec Ideal S128 .f32)
    (x : FVec Ideal S100000x64 .f32) :
    addf (mulf (extractStridedSlice S100000x64 ![0, 0] (addf (addf agg (mulf h (broadcastInDim S100000x128 ![0, 1] bcast_S100000x1_S100000x128_0_1 (broadcastInDim S100000x1 ![0] bcast_S100000_S100000x1_0 sc)))) (broadcastInDim S100000x128 ![0, 1] bcast_S1x128_S100000x128_0_1 (broadcastInDim S1x128 ![1] bcast_S128_S1x128_1 b))) slices_S100000x128_S100000x64_0_0)
      (Host.divf (broadcastInDim S100000x64 ![] bcast_S_S100000x64 (constant S_ .f32 0x3F800000#32))
        (addf (broadcastInDim S100000x64 ![] bcast_S_S100000x64 (constant S_ .f32 0x3F800000#32))
          (Host.exp (Host.negf (extractStridedSlice S100000x64 ![0, 64] (addf (addf agg (mulf h (broadcastInDim S100000x128 ![0, 1] bcast_S100000x1_S100000x128_0_1 (broadcastInDim S100000x1 ![0] bcast_S100000_S100000x1_0 sc)))) (broadcastInDim S100000x128 ![0, 1] bcast_S1x128_S100000x128_0_1 (broadcastInDim S1x128 ![1] bcast_S128_S1x128_1 b))) slices_S100000x128_S100000x64_0_64)))))) x
    = Cert.Spec.CB agg h sc b x := by
  funext i
  obtain ⟨r, j, rfl⟩ : ∃ (r : Fin 100000) (j : Fin 64), i = ix2 r j := ⟨i 0, i 1, eq_ix2 i⟩
  -- every pointwise operation read at (r, j)
  show extractStridedSlice S100000x64 ![0, 0] (hostPre agg h sc b) slices_S100000x128_S100000x64_0_0 (ix2 r j)
        * Ideal.div (hostOne (ix2 r j))
            (hostOne (ix2 r j) + Ideal.exp (-(extractStridedSlice S100000x64 ![0, 64] (hostPre agg h sc b) slices_S100000x128_S100000x64_0_64 (ix2 r j))))
        + x (ix2 r j)
      = Cert.Spec.preAt agg h sc b r (Cert.Spec.lo j) * Ideal.logistic (Cert.Spec.preAt agg h sc b r (Cert.Spec.hi j)) + x (ix2 r j)
  -- the two slices read channels j and j + 64 of the pre-activation array
  rw [slice2_axis1_apply 0 (hostPre agg h sc b) slices_S100000x128_S100000x64_0_0 r j (Cert.Spec.lo j) (Nat.zero_add _).symm,
    slice2_axis1_apply 64 (hostPre agg h sc b) slices_S100000x128_S100000x64_0_64 r j (Cert.Spec.hi j) (Nat.add_comm _ _),
    hostPre_apply, hostPre_apply, hostOne_apply]
  rfl

/-! ## The feature transform -/

/-- THE FEATURE TRANSFORM, as the host's one dot_general of the 100000×64 features by a 64×128 weight matrix
    computes it, is the specification's: entry (r, n) is the sum over the 64 input channels q of l(r, q) · w(q, n). -/
theorem dot_eq_MM (l : FVec Ideal S100000x64 .f32) (r : FVec Ideal S64x128 .f32) :
    Host.dotGeneral dot_S100000x64_S64x128_S100000x128_1_0_0_1_n_n none l r = Cert.Spec.MM l r := by
  funext i
  obtain ⟨p, n, rfl⟩ : ∃ (p : Fin 100000) (n : Fin 128), i = ix2 p n := ⟨i 0, i 1, eq_ix2 i⟩
  exact Cert.DotPlain.dot_plain_apply dot_S100000x64_S64x128_S100000x128_1_0_0_1_n_n rfl rfl rfl rfl rfl rfl none .single l r p n

end Cert.ReferenceIdeal.Layer

end
-- ==== Proof.RefValue.lean ====
/-
  The reference program's result as the network of its arguments. Its run names the intermediate arrays: the edge
  endpoints, deg^(-1/2), and per layer the product, the pre-activation and the layer's output. Each layer's
  output is the specification's gate of the aggregate, the product, the self-loop weights, the bias and the
  layer's input: the sixteen host operations after the aggregation are the gate read index by index, and the
  dot_general is the product; the gathers, the scatter-adds and the slices of the parameters are the very
  operations the shared layer is written with, so nothing else is opened.
-/
import proofs.«407175_j71511205479061_4_alg».proof.Proof.Gen.ReferenceIdeal.Run
import proofs.«407175_j71511205479061_4_alg».proof.Proof.RefLayer
import proofs.«407175_j71511205479061_4_alg».proof.Proof.Terms

set_option maxRecDepth 16384

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.Value Cert.ReferenceIdeal.Layer
open Cert.KernelIdeal.Terms

variable (V0 : Valuation τ sig (Elt Ideal))

/-- The edge sources, as the shared layer reads them. -/
theorem src_eq : res_main_v1 V0 = srcOf (V0 (Proc.devRef .tc main_arg3)) := rfl
/-- The edge targets. -/
theorem dst_eq : res_main_v3 V0 = dstOf (V0 (Proc.devRef .tc main_arg3)) := rfl
/-- deg^(-1/2). -/
theorem dinv_eq : res_main_v15 V0 = dinvOf (V0 (Proc.devRef .tc main_arg3)) := rfl

/-- The first layer's product. -/
theorem h1_eq : res_main_v20 V0
    = Cert.Spec.MM (V0 (Proc.devRef .tc main_arg0)) (weight0 (V0 (Proc.devRef .tc main_arg1))) := by
  unfold res_main_v20
  exact (dot_eq_MM _ _).trans rfl

/-- The first layer's output. -/
theorem x1_eq : res_main_v66 V0
    = layer (V0 (Proc.devRef .tc main_arg3)) (V0 (Proc.devRef .tc main_arg0))
        (weight0 (V0 (Proc.devRef .tc main_arg1))) (bias0 (V0 (Proc.devRef .tc main_arg2))) := by
  unfold res_main_v66 res_main_v56
  refine (gate_eq _ _ _ _ _).trans ?_
  rw [h1_eq, dinv_eq, src_eq, dst_eq]
  rfl

/-- The second layer's product. -/
theorem h2_eq : res_main_v71 V0
    = Cert.Spec.MM (res_main_v66 V0) (weight1 (V0 (Proc.devRef .tc main_arg1))) := by
  unfold res_main_v71
  exact (dot_eq_MM _ _).trans rfl

/-- The second layer's output. -/
theorem x2_eq : res_main_v117 V0
    = layer (V0 (Proc.devRef .tc main_arg3)) (res_main_v66 V0)
        (weight1 (V0 (Proc.devRef .tc main_arg1))) (bias1 (V0 (Proc.devRef .tc main_arg2))) := by
  unfold res_main_v117 res_main_v107
  refine (gate_eq _ _ _ _ _).trans ?_
  rw [h2_eq, dinv_eq, src_eq, dst_eq]
  rfl

/-- The third layer's product. -/
theorem h3_eq : res_main_v122 V0
    = Cert.Spec.MM (res_main_v117 V0) (weight2 (V0 (Proc.devRef .tc main_arg1))) := by
  unfold res_main_v122
  exact (dot_eq_MM _ _).trans rfl

/-- The third layer's output, the program's result: the term the run ends at. -/
theorem x3_eq :
    addf (mulf (extractStridedSlice S100000x64 ![0, 0] (res_main_v158 V0) slices_S100000x128_S100000x64_0_0) (Host.divf (broadcastInDim S100000x64 ![] bcast_S_S100000x64 (constant S_ .f32 0x3F800000#32)) (addf (broadcastInDim S100000x64 ![] bcast_S_S100000x64 (constant S_ .f32 0x3F800000#32)) (Host.exp (Host.negf (extractStridedSlice S100000x64 ![0, 64] (res_main_v158 V0) slices_S100000x128_S100000x64_0_64)))))) (res_main_v117 V0)
    = layer (V0 (Proc.devRef .tc main_arg3)) (res_main_v117 V0)
        (weight2 (V0 (Proc.devRef .tc main_arg1))) (bias2 (V0 (Proc.devRef .tc main_arg2))) := by
  unfold res_main_v158
  refine (gate_eq _ _ _ _ _).trans ?_
  rw [h3_eq, dinv_eq, src_eq, dst_eq]
  rfl

/-- The reference's result is the network of its arguments. -/
theorem result_eq :
    addf (mulf (extractStridedSlice S100000x64 ![0, 0] (res_main_v158 V0) slices_S100000x128_S100000x64_0_0) (Host.divf (broadcastInDim S100000x64 ![] bcast_S_S100000x64 (constant S_ .f32 0x3F800000#32)) (addf (broadcastInDim S100000x64 ![] bcast_S_S100000x64 (constant S_ .f32 0x3F800000#32)) (Host.exp (Host.negf (extractStridedSlice S100000x64 ![0, 64] (res_main_v158 V0) slices_S100000x128_S100000x64_0_64)))))) (res_main_v117 V0)
    = network (V0 (Proc.devRef .tc main_arg0)) (V0 (Proc.devRef .tc main_arg1)) (V0 (Proc.devRef .tc main_arg2))
        (V0 (Proc.devRef .tc main_arg3)) := by
  rw [x3_eq, x2_eq, x1_eq]
  rfl

end Cert.ReferenceIdeal.RefValue

end
-- ==== Proof.lean ====
/-
  A three-layer gated graph convolution: per layer the node features are multiplied by a weight matrix, every node
  sums its in-neighbours' transformed features weighted by deg^(-1/2) at both ends of the edge, adds its own
  scaled by 1/deg and a bias, and the first 64 channels gated by the logistic of the last 64 are added to the
  layer's input. The kernel program computes the product and the gate in tiled device regions and everything else on
  the host; the reference computes all of it on the host. Over the extended reals the two results are ONE function
  of the arguments, the network of Proof/Terms.lean:
    * a tiled product into a zero accumulator and one dot_general are the same sums (Proof/MatmulRegion*.lean,
      Proof/RefLayer.lean), row blocks of 10000 covering the 100000 nodes;
    * the gate region and the reference's sixteen elementwise host operations are the same expression index by
      index, the logistic being 1 / (1 + exp (-t)) on both sides (Proof/GateRegion*.lean, Proof/RefLayer.lean), row
      blocks of 5000 covering the nodes;
    * the gathers, scatter-adds, slices and reshapes are the same host operations in both programs and are carried
      unopened (Proof/KernelHost.lean, Proof/KernelValue.lean, Proof/RefValue.lean).
  No law that needs finiteness is used, so the precondition is never opened. The three frames are the generated
  frame certificates and the reference's generated run; the idealization rewrote nothing.
-/
import proofs.«407175_j71511205479061_4_alg».proof.Defs
import proofs.«407175_j71511205479061_4_alg».proof.Proof.Gen.Kernel
import proofs.«407175_j71511205479061_4_alg».proof.Proof.Gen.Kernel.Skeleton
import proofs.«407175_j71511205479061_4_alg».proof.Proof.Gen.Kernel.Launch
import proofs.«407175_j71511205479061_4_alg».proof.Proof.Gen.Kernel.Points
import proofs.«407175_j71511205479061_4_alg».proof.Proof.Gen.Kernel.Frame
import proofs.«407175_j71511205479061_4_alg».proof.Proof.Gen.KernelIdeal
import proofs.«407175_j71511205479061_4_alg».proof.Proof.Gen.KernelIdeal.Skeleton
import proofs.«407175_j71511205479061_4_alg».proof.Proof.Gen.KernelIdeal.Launch
import proofs.«407175_j71511205479061_4_alg».proof.Proof.Gen.KernelIdeal.Points
import proofs.«407175_j71511205479061_4_alg».proof.Proof.Gen.KernelIdeal.Frame
import proofs.«407175_j71511205479061_4_alg».proof.Proof.Gen.ReferenceIdeal
import proofs.«407175_j71511205479061_4_alg».proof.Proof.Gen.ReferenceIdeal.Run
import proofs.«407175_j71511205479061_4_alg».proof.Proof.Gen.Pre_finite_inputs
import proofs.«407175_j71511205479061_4_alg».proof.Proof.KernelRun
import proofs.«407175_j71511205479061_4_alg».proof.Proof.KernelValue
import proofs.«407175_j71511205479061_4_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the network of the arguments, and the arguments agree. -/
theorem algebraic : Cert.algebraic_KernelIdeal_ReferenceIdeal := by
  intro m ρ m' ρ' _ hagree
  refine ⟨fun c => Cert.KernelIdeal.Terms.network (Cert.KernelIdeal.Value.a0 m c) (Cert.KernelIdeal.Value.a1 m c)
    (Cert.KernelIdeal.Value.a2 m c) (Cert.KernelIdeal.Value.a3 m c), ?_, ?_⟩
  · exact (θ_run Cert.KernelIdeal.defs _ _).mono
      (fun r h c => ⟨(h c).1.trans (Cert.KernelIdeal.Value.result_eq m ρ c), (h c).2⟩)
      (Cert.KernelIdeal.GenRun.run_main (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefValue.result_eq (StableHlo.launchContents m' c)).trans ?_
    have e := hagree c
    show Cert.KernelIdeal.Terms.network
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) = _
    rw [e.1, e.2.1, e.2.2.1, e.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
